-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x360 : Shape := ⟨2, ![131072, 360]⟩
abbrev S131072 : Shape := ⟨1, ![131072]⟩
abbrev S_ : Shape := ⟨0, ![]⟩

class Facts : Prop where
  bcast_S_S131072x360 : S_.BroadcastsInDim S131072x360 (![] : Fin 0 → Fin S131072x360.rank)
  reducesTo_S131072x360_S_d0_1 : S131072x360.ReducesTo [0, 1] S_
  h_S_ : 0 < S_.numel
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S131072x360 .f32) (main_arg1 : IVec S131072 32) : IVec S_ 1 :=
  let main_v0 : FVec F S131072x360 .f32 := Host.absf main_arg0
  let main_cst : FVec F S_ .f32 := constant S_ .f32 0x7F800000#32
  let main_v1 : FVec F S131072x360 .f32 := broadcastInDim S131072x360 ![] bcast_S_S131072x360 main_cst
  let main_v2 : IVec S131072x360 1 := cmpf .olt main_v0 main_v1
  let main_c : IVec S_ 1 := constantI S_ 1 1#1
  let main_v3 : IVec S_ 1 := (fun x v => Host.reduce IntOp.andi x v reducesTo_S131072x360_S_d0_1 h_S_) main_v2 main_c
  let main_c_0 : IVec S_ 32 := constantI S_ 32 0#32
  let main_v4 : IVec S131072 32 := broadcastInDim S131072 ![] bcast_S_S131072 main_c_0
  let main_v5 : IVec S131072 1 := cmpi .sge main_arg1 main_v4
  let main_c_1 : IVec S_ 32 := constantI S_ 32 360#32
  let main_v6 : IVec S131072 32 := broadcastInDim S131072 ![] bcast_S_S131072 main_c_1
  let main_v7 : IVec S131072 1 := cmpi .slt main_arg1 main_v6
  let main_v8 : IVec S131072 1 := andi main_v5 main_v7
  let main_c_2 : IVec S_ 1 := constantI S_ 1 1#1
  let main_v9 : IVec S_ 1 := (fun x v => Host.reduce IntOp.andi x v reducesTo_S131072_S_d0 h_S_) main_v8 main_c_2
  let main_v10 : IVec S_ 1 := andi main_v3 main_v9
  main_v10
-- ==== Kernel.lean ====
abbrev S131072x360 : Shape := ⟨2, ![131072, 360]⟩
abbrev S131072 : Shape := ⟨1, ![131072]⟩
abbrev S131072x1 : Shape := ⟨2, ![131072, 1]⟩
abbrev S16x128 : Shape := ⟨2, ![16, 128]⟩
abbrev S4096x360 : Shape := ⟨2, ![4096, 360]⟩
abbrev S4096x1 : Shape := ⟨2, ![4096, 1]⟩
abbrev S8x128 : Shape := ⟨2, ![8, 128]⟩
abbrev S1x1 : Shape := ⟨2, ![1, 1]⟩
abbrev S4096 : Shape := ⟨1, ![4096]⟩
abbrev S1 : Shape := ⟨1, ![1]⟩
abbrev S_ : Shape := ⟨0, ![]⟩

abbrev nBuf : Space → Nat
  | .hbm => 13
  | .vmem => 7
  | .smem => 0
  | _ => 0

abbrev bufTy : (tb : Table) → Fin (tcTables nBuf tb) → BufTy
  | .hbm, ⟨0, _⟩ => ⟨S131072x360, .f32⟩
  | .hbm, ⟨1, _⟩ => ⟨S131072, .i32⟩
  | .hbm, ⟨2, _⟩ => ⟨S131072x1, .i32⟩
  | .hbm, ⟨3, _⟩ => ⟨S16x128, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1, .f32⟩
  | .local _ .vmem, ⟨0, _⟩ => ⟨S4096x360, .f32⟩
  | .local _ .vmem, ⟨1, _⟩ => ⟨S4096x360, .f32⟩
  | .local _ .vmem, ⟨2, _⟩ => ⟨S4096x1, .i32⟩
  | .local _ .vmem, ⟨3, _⟩ => ⟨S4096x1, .i32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S131072x360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_13 : BitVec 32 := 0#32
  let v36 : BitVec 1 := Scalar.cmpi .ne v35 c0_i32_13
  v36

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x360 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S131072_S131072x1 : S131072.ShapeCasts S131072x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x360_S4096x360_0_0 : ∀ a, (![0, 0] : Fin 2 → Nat) a + S4096x360.size a ≤ S4096x360.size a
  h_S4096x360 : 0 < S4096x360.numel
  reduces_S4096x360_S4096 : S4096x360.Reduces [1] S4096
  shapeCasts_S4096_S4096x1 : S4096.ShapeCasts S4096x1
  broadcasts_S4096x1_S4096x360 : S4096x1.Broadcasts S4096x360
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x360_d1_w32 : S4096x360.Iotas .tc 32 [1]
  reduces_S4096x1_S1 : S4096x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x360.size a ≤ S131072x360.size a
  hwx0_0 : ∀ i : grid0.Coords, EltTy.bits .f32 = 32 ∨ (Rect.block (s := S131072x360) S4096x360.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S131072x1.size a
  hwx0_1 : ∀ i : grid0.Coords, EltTy.bits .i32 = 32 ∨ (Rect.block (s := S131072x1) S4096x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S4096x360.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S131072x360 : Shape := ⟨2, ![131072, 360]⟩
abbrev S131072 : Shape := ⟨1, ![131072]⟩
abbrev S_ : Shape := ⟨0, ![]⟩
abbrev S131072x1 : Shape := ⟨2, ![131072, 1]⟩
abbrev S131072x1x1 : Shape := ⟨3, ![131072, 1, 1]⟩
abbrev S1 : Shape := ⟨1, ![1]⟩
abbrev S1x1x1 : Shape := ⟨3, ![1, 1, 1]⟩

abbrev nBuf : Space → Nat
  | .hbm => 53
  | .vmem => 0
  | .smem => 0
  | _ => 0

abbrev bufTy : (tb : Table) → Fin (tcTables nBuf tb) → BufTy
  | .hbm, ⟨0, _⟩ => ⟨S131072x360, .f32⟩
  | .hbm, ⟨1, _⟩ => ⟨S131072, .i32⟩
  | .hbm, ⟨2, _⟩ => ⟨S131072x360, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S131072x360, .f32⟩
  | .hbm, ⟨7, _⟩ => ⟨S131072x360, .f32⟩
  | .hbm, ⟨8, _⟩ => ⟨S_, .f32⟩
  | .hbm, ⟨9, _⟩ => ⟨S131072, .f32⟩
  | .hbm, ⟨10, _⟩ => ⟨S_, .f32⟩
  | .hbm, ⟨11, _⟩ => ⟨S131072, .f32⟩
  | .hbm, ⟨12, _⟩ => ⟨S131072, .f32⟩
  | .hbm, ⟨13, _⟩ => ⟨S131072x1, .f32⟩
  | .hbm, ⟨14, _⟩ => ⟨S131072x360, .f32⟩
  | .hbm, ⟨15, _⟩ => ⟨S131072x360, .f32⟩
  | .hbm, ⟨16, _⟩ => ⟨S131072x360, .f32⟩
  | .hbm, ⟨17, _⟩ => ⟨S_, .f32⟩
  | .hbm, ⟨18, _⟩ => ⟨S131072, .f32⟩
  | .hbm, ⟨19, _⟩ => ⟨S131072x1, .f32⟩
  | .hbm, ⟨20, _⟩ => ⟨S131072x1, .f32⟩
  | .hbm, ⟨21, _⟩ => ⟨S131072x360, .f32⟩
  | .hbm, ⟨22, _⟩ => ⟨S131072x360, .f32⟩
  | .hbm, ⟨23, _⟩ => ⟨S131072x1, .i32⟩
  | .hbm, ⟨24, _⟩ => ⟨S_, .i32⟩
  | .hbm, ⟨25, _⟩ => ⟨S131072x1, .i32⟩
  | .hbm, ⟨26, _⟩ => ⟨S131072x1, .i1⟩
  | .hbm, ⟨27, _⟩ => ⟨S_, .i32⟩
  | .hbm, ⟨28, _⟩ => ⟨S131072x1, .i32⟩
  | .hbm, ⟨29, _⟩ => ⟨S131072x1, .i32⟩
  | .hbm, ⟨30, _⟩ => ⟨S131072x1, .i32⟩
  | .hbm, ⟨31, _⟩ => ⟨S131072x1x1, .i32⟩
  | .hbm, ⟨32, _⟩ => ⟨S1, .i32⟩
  | .hbm, ⟨33, _⟩ => ⟨S_, .i32⟩
  | .hbm, ⟨34, _⟩ => ⟨S131072x1x1, .i32⟩
  | .hbm, ⟨35, _⟩ => ⟨S131072x1x1, .i1⟩
  | .hbm, ⟨36, _⟩ => ⟨S1x1x1, .i32⟩
  | .hbm, ⟨37, _⟩ => ⟨S131072x1x1, .i32⟩
  | .hbm, ⟨38, _⟩ => ⟨S131072x1x1, .i1⟩
  | .hbm, ⟨39, _⟩ => ⟨S131072x1x1, .i1⟩
  | .hbm, ⟨40, _⟩ => ⟨S_, .i1⟩
  | .hbm, ⟨41, _⟩ => ⟨S131072x1, .i1⟩
  | .hbm, ⟨42, _⟩ => ⟨S131072x1, .f32⟩
  | .hbm, ⟨43, _⟩ => ⟨S_, .f32⟩
  | .hbm, ⟨44, _⟩ => ⟨S131072x1, .f32⟩
  | .hbm, ⟨45, _⟩ => ⟨S131072x1, .f32⟩
  | .hbm, ⟨46, _⟩ => ⟨S131072, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S1, .f32⟩
  | _, _ => ⟨S131072x360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v5 : Ref sig .tc := ⟨.hbm, 22, rfl⟩
abbrev main_v6 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v7 : Ref sig .tc := ⟨.hbm, 45, rfl⟩
abbrev main_v8 : Ref sig .tc := ⟨.hbm, 46, rfl⟩
abbrev main_cst_0 : Ref sig .tc := ⟨.hbm, 47, rfl⟩
abbrev main_v9 : Ref sig .tc := ⟨.hbm, 48, rfl⟩
abbrev main_v10 : Ref sig .tc := ⟨.hbm, 49, rfl⟩
abbrev main_cst_1 : Ref sig .tc := ⟨.hbm, 50, rfl⟩
abbrev main_v11 : Ref sig .tc := ⟨.hbm, 51, rfl⟩
abbrev main_v12 : Ref sig .tc := ⟨.hbm, 52, rfl⟩

abbrev nD : Nat := 1
abbrev τ : Topo := Topo.v7x

variable {F : FTy → Type} [FloatOps F]

class Facts₀ : Prop where
  reducesTo_S131072x360_S131072_d1 : S131072x360.ReducesTo [1] S131072
  h_S_ : 0 < S_.numel
  bcast_S131072_S131072x1_0 : S131072.BroadcastsInDim S131072x1 (![0] : Fin 1 → Fin S131072x1.rank)
  bcast_S131072x1_S131072x360_0_1 : S131072x1.BroadcastsInDim S131072x360 (![0, 1] : Fin 2 → Fin S131072x360.rank)
  bcast_S_S131072 : S_.BroadcastsInDim S131072 (![] : Fin 0 → Fin S131072.rank)
  bcast_S_S131072x1 : S_.BroadcastsInDim S131072x1 (![] : Fin 0 → Fin S131072x1.rank)
  shapeCasts_S131072x1_S131072x1x1 : S131072x1.ShapeCasts S131072x1x1
  bcast_S_S131072x1x1 : S_.BroadcastsInDim S131072x1x1 (![] : Fin 0 → Fin S131072x1x1.rank)
  bcast_S1_S1x1x1_2 : S1.BroadcastsInDim S1x1x1 (![2] : Fin 1 → Fin S1x1x1.rank)
  bcast_S1x1x1_S131072x1x1_0_1_2 : S1x1x1.BroadcastsInDim S131072x1x1 (![0, 1, 2] : Fin 3 → Fin S131072x1x1.rank)
  reducesTo_S131072x1x1_S131072x1_d2 : S131072x1x1.ReducesTo [2] S131072x1
  shapeCasts_S131072x1_S131072 : S131072x1.ShapeCasts S131072
  reducesTo_S131072_S_d0 : S131072.ReducesTo [0] S_
  shapeCasts_S_S1 : S_.ShapeCasts S1
  gather_S131072x360_S131072x1x1_S131072x1_n_1_0_0_1_2_11_wf : GatherDims.WF S131072x360 S131072x1x1 S131072x1 [] [1] [0] [1] [0] 2 ![1, 1]

variable [Facts₀]

def gather_S131072x360_S131072x1x1_S131072x1_n_1_0_0_1_2_11 : GatherDims S131072x360 S131072x1x1 S131072x1 where
  offsetDims := []
  collapsedSliceDims := [1]
  operandBatchingDims := [0]
  startIndicesBatchingDims := [0]
  startIndexMap := [1]
  indexVectorDim := 2
  sliceSizes := ![1, 1]
  wf := gather_S131072x360_S131072x1x1_S131072x1_n_1_0_0_1_2_11_wf

class Facts : Prop extends Facts₀ where

variable [Facts]
-- ==== Proof.KernelPieces.lean ====
/-
  What each control case of the kernel body leaves behind, as values.

  The body keeps a one-element accumulator across the grid points of one core. With `upd x l a` the
  accumulator's new value from a tile `x`, its labels `l` and the old accumulator `a`:
    at a first tile (the accumulator reset):  upd x l 0,
    at a middle tile:                         upd x l a,
    at a last tile:                           upd x l a, and the output block is that value in every entry.
-/
import proofs.«417655_j70643622085336_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- A middle tile: the accumulator ends at its update from the tile, the labels and its old value. -/
theorem sout_B (c : Dev nD) (i : grid0.Coords) (arg2 : Memref sig .tc .vmem S4096x360 .f32) (harg2 : arg2.IsWhole) (arg3 : Memref sig .tc .vmem S4096x1 .i32) (harg3 : arg3.IsWhole) (arg4 : Memref sig .tc .vmem S8x128 .f32) (harg4 : arg4.IsWhole) (arg5 : Memref sig .tc .vmem S1x1 .f32) (harg5 : arg5.IsWhole) (hc0 : ¬cond0_0 i) (hc1 : ¬cond0_1 i)
    (x0 : Vec F S4096x360 .f32) (x1 : Vec F S4096x1 .i32) (xs0 : Vec F S1x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread,
    View.ld_unit_zero (S := S4096x360) hz, View.ld_unit_zero (S := S4096x1) hz, View.ld_unit_zero (S := S1x1) hz]

/-- A first tile: the accumulator is reset to the zero block and then updated from it. -/
theorem sout_A (c : Dev nD) (i : grid0.Coords) (arg2 : Memref sig .tc .vmem S4096x360 .f32) (harg2 : arg2.IsWhole) (arg3 : Memref sig .tc .vmem S4096x1 .i32) (harg3 : arg3.IsWhole) (arg4 : Memref sig .tc .vmem S8x128 .f32) (harg4 : arg4.IsWhole) (arg5 : Memref sig .tc .vmem S1x1 .f32) (harg5 : arg5.IsWhole) (hc0 : cond0_0 i) (hc1 : ¬cond0_1 i)
    (x0 : Vec F S4096x360 .f32) (x1 : Vec F S4096x1 .i32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz]
  simp only [View.readAt_eq_ld, harg2.read_unread, harg3.read_unread, harg5.read_unread,
    View.readCov_unit_zero (S := S1x1) _ hz,
    View.ld_unit_zero (S := S4096x360) hz, View.ld_unit_zero (S := S4096x1) hz, View.ld_unit_zero (S := S1x1) hz]

/-- A last tile: the accumulator is updated as at a middle tile … -/
theorem sout_C (c : Dev nD) (i : grid0.Coords) (arg2 : Memref sig .tc .vmem S4096x360 .f32) (harg2 : arg2.IsWhole) (arg3 : Memref sig .tc .vmem S4096x1 .i32) (harg3 : arg3.IsWhole) (arg4 : Memref sig .tc .vmem S8x128 .f32) (harg4 : arg4.IsWhole) (arg5 : Memref sig .tc .vmem S1x1 .f32) (harg5 : arg5.IsWhole) (hc0 : ¬cond0_0 i) (hc1 : cond0_1 i)
    (x0 : Vec F S4096x360 .f32) (x1 : Vec F S4096x1 .i32) (xs0 : Vec F S1x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread,
    View.ld_unit_zero (S := S4096x360) hz, View.ld_unit_zero (S := S4096x1) hz, View.ld_unit_zero (S := S1x1) hz]

/-- … and the output block is the updated accumulator spread over its 8 × 128 entries. -/
theorem out_C (c : Dev nD) (i : grid0.Coords) (arg2 : Memref sig .tc .vmem S4096x360 .f32) (harg2 : arg2.IsWhole) (arg3 : Memref sig .tc .vmem S4096x1 .i32) (harg3 : arg3.IsWhole) (arg4 : Memref sig .tc .vmem S8x128 .f32) (harg4 : arg4.IsWhole) (arg5 : Memref sig .tc .vmem S1x1 .f32) (harg5 : arg5.IsWhole) (hc0 : ¬cond0_0 i) (hc1 : cond0_1 i)
    (x0 : Vec F S4096x360 .f32) (x1 : Vec F S4096x1 .i32) (xs0 : Vec F S1x1 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread,
    View.readCov_unit_zero (S := S1x1) _ hz,
    View.ld_unit_zero (S := S4096x360) hz, View.ld_unit_zero (S := S4096x1) hz, View.ld_unit_zero (S := S1x1) hz]

end Cert.KernelIdeal.KValue

end
-- ==== Proof.RowLoss.lean ====
/-
  The quantity both programs compute, as mathematics on the extended reals.

  For one row `x` of 360 entries and a label word `w`:
    l1 x       = Σ_j |x_j|
    scaled x j = x_j / l1 x
    rowMax x   = the maximum of the scaled row (the fold of `max` from -∞)
    shifted x j = scaled x j - rowMax x
    lse x      = log (Σ_j exp (shifted x j))
    pick s w   = Σ_j (s_j if j = w else 0)            -- the one-hot selection written as a masked sum
    rowLoss x w = pick (shifted x) w - lse x
  and over the 131072 rows:  total = (-(Σ_b rowLoss (X b) (lab b))) / 360.

  Also here, free of any program: a masked sum whose label lies in the row is the entry at the label;
  the sum over 131072 rows re-indexed as 32 tiles of 4096 rows; and the accumulation that restarts every
  16 tiles, whose two final values add up to the sum over all 32 tiles (addition on the extended reals is
  commutative and associative, so no finiteness is needed anywhere).
-/
import Idealize.ShloMosaic.PureOps.Ideal
import Idealize.ShloMosaic.PureOps.Ideal.Laws
import Idealize.ShloMosaic.Lib.ValueIdx
import Idealize.ShloMosaic.Lib.StableHlo.Predicate

noncomputable section

namespace Cert.RowLoss

open Idealize.ShloMosaic

/-- A row of 360 extended reals. -/
abbrev Row := Fin 360 → EReal

/-- The row's L1 norm. -/
def l1 (x : Row) : EReal := ∑ j : Fin 360, max (x j) (-(x j))

/-- The row divided by its L1 norm. -/
def scaled (x : Row) (j : Fin 360) : EReal := Ideal.div (x j) (l1 x)

/-- The largest scaled entry: the fold of `max` from -∞. -/
def rowMax (x : Row) : EReal := (Finset.univ : Finset (Fin 360)).fold max ⊥ (scaled x)

/-- The scaled row shifted by its maximum. -/
def shifted (x : Row) (j : Fin 360) : EReal := scaled x j - rowMax x

/-- The logarithm of the sum of the exponentials of the shifted row. -/
def lse (x : Row) : EReal := Ideal.log (∑ j : Fin 360, Ideal.exp (shifted x j))

/-- The masked sum: the entries of `s` whose column number is the word `w`, the others replaced by zero. -/
def pick (s : Row) (w : BitVec 32) : EReal :=
  ∑ j : Fin 360, Scalar.select (IntOp.cmpi .eq (BitVec.ofNat 32 j.val) w) (s j) (0 : EReal)

/-- One row's contribution: the shifted entry at the label minus the log-sum-exp. -/
def rowLoss (x : Row) (w : BitVec 32) : EReal := pick (shifted x) w - lse x

/-- The loss over all 131072 rows: minus the sum of the rows' contributions, over `d` (the word for 360). -/
def total (X : Fin 131072 → Row) (lab : Fin 131072 → BitVec 32) (d : EReal) : EReal :=
  Ideal.div (-(∑ b : Fin 131072, rowLoss (X b) (lab b))) d

/-- A masked sum whose label is a column of the row is the entry at that column. -/
theorem pick_of_lt (s : Row) (w : BitVec 32) (hw : w.toNat < 360) : pick s w = s ⟨w.toNat, hw⟩ := by
  unfold pick
  rw [Finset.sum_eq_single (⟨w.toNat, hw⟩ : Fin 360)]
  · have : IntOp.cmpi .eq (BitVec.ofNat 32 w.toNat) w = 1#1 :=
      StableHlo.Predicate.cmpi_eq_iff.mpr (by simp)
    show Scalar.select (IntOp.cmpi .eq (BitVec.ofNat 32 w.toNat) w) _ _ = _
    rw [this]; exact ValueIdx.select_one _ _
  · intro j _ hj
    have hne : ¬ IntOp.cmpi .eq (BitVec.ofNat 32 j.val) w = 1#1 := by
      rw [StableHlo.Predicate.cmpi_eq_iff]
      intro h
      apply hj
      apply Fin.ext
      have := congrArg BitVec.toNat h
      simp only [BitVec.toNat_ofNat] at this
      have hj' := j.isLt
      show j.val = w.toNat
      omega
    rw [ValueIdx.eq_zero_of_ne_one hne]; exact ValueIdx.select_zero _ _
  · intro h; exact absurd (Finset.mem_univ _) h

/-- Row `r` of tile `t`, as a row of the whole array. -/
def rowOf (t : Fin 32) (r : Fin 4096) : Fin 131072 := ⟨t.val * 4096 + r.val, by have := t.isLt; have := r.isLt; omega⟩

/-- The sum over the 131072 rows is the sum over the 32 tiles of the sums over each tile's 4096 rows. -/
theorem sum_rows (f : Fin 131072 → EReal) : ∑ b : Fin 131072, f b = ∑ t : Fin 32, ∑ r : Fin 4096, f (rowOf t r) := by
  rw [← Fintype.sum_prod_type']
  exact (Fintype.sum_equiv (finProdFinEquiv (m := 32) (n := 4096)) (fun p => f (rowOf p.1 p.2)) f (fun p =>
    congrArg f (Fin.ext (by show p.1.val * 4096 + p.2.val = p.2.val + 4096 * p.1.val; omega)))).symm

/-- The accumulator as the grid leaves it after tile `n`: restarted from zero at every sixteenth tile. -/
def accAt (P : ℕ → EReal) : ℕ → EReal
  | 0 => 0 + P 0
  | n + 1 => if (n + 1) % 16 = 0 then 0 + P (n + 1) else accAt P n + P (n + 1)

/-- The two accumulators' final values add up to the sum over all 32 tiles. -/
theorem accAt_sum (P : ℕ → EReal) : accAt P 15 + accAt P 31 = ∑ t : Fin 32, P t.val := by
  rw [Fin.sum_univ_eq_sum_range (fun n => P n) 32]
  simp only [accAt, Finset.sum_range_succ, Finset.sum_range_zero, Nat.reduceMod, Nat.reduceAdd, Nat.reduceEqDiff,
    if_true, if_false, ↓reduceIte, zero_add, add_assoc]

end Cert.RowLoss

end
-- ==== Proof.TileValue.lean ====
/-
  The accumulator's update, read at the extended reals.

  For a tile `x` (4096 rows of 360), its labels `l` (one word per row) and an accumulator holding `e`,
  the update leaves  e + Σ_r rowLoss (row r of x) (label r):  per row the L1 norm is a lane sum, the
  scaling a division by that sum spread along the lanes, the row maximum a lane fold of `max` from -∞,
  the log-sum-exp a lane sum under `log`, the label's entry a lane sum of the one-hot selection
  (column number = label word), and the tile's partial a sum over the 4096 rows.
-/
import proofs.«417655_j70643622085336_2_alg».proof.Proof.Gen.KernelIdeal.Skeleton
import proofs.«417655_j70643622085336_2_alg».proof.Proof.RowLoss
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.TileValue

open Cert.KernelIdeal Cert.KernelIdeal.Gen Cert.RowLoss

/-! ## Layout steps at an index -/

section Layout
variable {α : Type}

/-- A vector of 4096 entries viewed as a column: row `r` of the column is entry `r`. -/
theorem col_apply (v : S4096.Idx → α) (h : S4096.ShapeCasts S4096x1) (r : Fin 4096) (c : Fin 1) :
    shapeCast S4096x1 v h (ix2 r c) = v (ix1 r) := by
  refine shapeCast_apply v h (ix2 r c) (ix1 r) ?_
  rw [Shape.rowMajor_val_one, Shape.rowMajor_val_two]
  have hc : c.val = 0 := by omega
  show r.val = r.val * 1 + c.val
  omega

/-- A column spread along the 360 lanes: every lane of row `r` reads the column's row `r`. -/
theorem spread_apply (v : S4096x1.Idx → α) (h : S4096x1.Broadcasts S4096x360) (r : Fin 4096) (j : Fin 360) :
    broadcastTo S4096x360 v h (ix2 r j) = v (ix2 r 0) := by
  refine broadcastTo_apply v h (ix2 r j) (ix2 r 0) fun a => ?_
  match a with
  | ⟨0, _⟩ => rfl
  | ⟨1, _⟩ => rfl

/-- A one-entry vector viewed as a 1 × 1 block reads its entry. -/
theorem one_apply (v : S1.Idx → α) (h : S1.ShapeCasts S1x1) (i : S1x1.Idx) :
    shapeCast S1x1 v h i = v (ix1 0) := by
  refine shapeCast_apply v h i (ix1 0) ?_
  rw [Shape.rowMajor_val_one, Shape.rowMajor_val_two]
  have h0 : (i 0).val < 1 := (i 0).isLt
  have h1 : (i 1).val < 1 := (i 1).isLt
  show 0 = (i 0).val * 1 + (i 1).val
  omega

/-- A 1 × 1 block spread over 8 × 128 reads its entry everywhere. -/
theorem fill_apply (v : S1x1.Idx → α) (h : S1x1.Broadcasts S8x128) (i : S8x128.Idx) :
    broadcastTo S8x128 v h i = v (ix2 0 0) := by
  refine broadcastTo_apply v h i (ix2 0 0) fun a => ?_
  match a with
  | ⟨0, _⟩ => rfl
  | ⟨1, _⟩ => rfl

end Layout

/-! ## The three reductions at an index -/

/-- The word for -∞. -/
theorem ofBits_neg_inf : Ideal.ofBits .f32 0xFF800000#32 = (⊥ : EReal) := by simp [Ideal.ofBits, Ideal.ieee]

/-- A lane sum of a 4096 × 360 block, at row `r`. -/
theorem laneSum_apply (src : FVec Ideal S4096x360 .f32) (h : S4096x360.Reduces [1] S4096) (hφ : FKind.Formats .f32)
    (hacc : (0x00000000#32 : BitVec 32) = 0x00000000#32) (r : Fin 4096) :
    multiReduction .add [1] S4096 src 0x00000000#32 h hφ hacc (ix1 r) = ∑ j : Fin 360, src (ix2 r j) := by
  refine (Ideal.multiReduction_add_single src 0x00000000#32 h hφ hacc (ix1 r)).trans ?_
  exact Finset.sum_congr rfl fun k _ => congrArg src (funext fun a => Fin.ext (by
    match a with
    | ⟨0, _⟩ => rfl
    | ⟨1, _⟩ => rfl))

/-- A lane maximum of a 4096 × 360 block, at row `r`: the fold of `max` from -∞. -/
theorem laneMax_apply (src : FVec Ideal S4096x360 .f32) (h : S4096x360.Reduces [1] S4096) (hφ : FKind.Formats .f32)
    (hacc : (0xFF800000#32 : BitVec 32) = 0xFF800000#32) (r : Fin 4096) :
    multiReduction .maximumf [1] S4096 src 0xFF800000#32 h hφ hacc (ix1 r)
      = (Finset.univ : Finset (Fin 360)).fold max ⊥ (fun j => src (ix2 r j)) := by
  refine (Ideal.multiReduction_maximumf_single src 0xFF800000#32 h hφ hacc (ix1 r)).trans ?_
  have e : (src ∘ h.lift (ix1 r)) = fun j : Fin 360 => src (ix2 r j) := funext fun k =>
    congrArg src (funext fun a => Fin.ext (by
      match a with
      | ⟨0, _⟩ => rfl
      | ⟨1, _⟩ => rfl))
  rw [e]
  exact congrArg (fun b : EReal => Finset.fold max b (fun j : Fin 360 => src (ix2 r j)) Finset.univ) ofBits_neg_inf

/-- The sum over the 4096 rows of a column. -/
theorem rowSum_apply (src : FVec Ideal S4096x1 .f32) (h : S4096x1.Reduces [0] S1) (hφ : FKind.Formats .f32)
    (hacc : (0x00000000#32 : BitVec 32) = 0x00000000#32) :
    multiReduction .add [0] S1 src 0x00000000#32 h hφ hacc (ix1 0) = ∑ r : Fin 4096, src (ix2 r 0) := by
  refine (Ideal.multiReduction_add_single src 0x00000000#32 h hφ hacc (ix1 0)).trans ?_
  exact Finset.sum_congr rfl fun k _ => congrArg src (funext fun a => Fin.ext (by
    match a with
    | ⟨0, _⟩ => rfl
    | ⟨1, _⟩ => rfl))

/-! ## The body's stages, named, and each read at an index -/

/-- Row `r` of a tile. -/
abbrev rowAt (x : Vec Ideal S4096x360 .f32) (r : Fin 4096) : Row := fun j => x (ix2 r j)

/-- The tile divided, row by row, by the row's L1 norm. -/
def sc (x : Vec Ideal S4096x360 .f32) : FVec Ideal S4096x360 .f32 :=
  divf x (broadcastTo S4096x360 (shapeCast S4096x1 (multiReduction .add [1] S4096 (absf x) 0x00000000#32
    reduces_S4096x360_S4096 (.inl rfl) rfl) shapeCasts_S4096_S4096x1) broadcasts_S4096x1_S4096x360)

theorem sc_apply (x : Vec Ideal S4096x360 .f32) (r : Fin 4096) (j : Fin 360) : sc x (ix2 r j) = scaled (rowAt x r) j := by
  unfold sc scaled l1
  rw [divf_apply, spread_apply, col_apply, laneSum_apply]
  rfl

/-- The scaled tile shifted, row by row, by the row's maximum. -/
def sh (x : Vec Ideal S4096x360 .f32) : FVec Ideal S4096x360 .f32 :=
  subf (sc x) (broadcastTo S4096x360 (shapeCast S4096x1 (multiReduction .maximumf [1] S4096 (sc x) 0xFF800000#32
    reduces_S4096x360_S4096 (.inl rfl) rfl) shapeCasts_S4096_S4096x1) broadcasts_S4096x1_S4096x360)

theorem sh_apply (x : Vec Ideal S4096x360 .f32) (r : Fin 4096) (j : Fin 360) : sh x (ix2 r j) = shifted (rowAt x r) j := by
  unfold sh shifted rowMax
  rw [subf_apply, spread_apply, col_apply, laneMax_apply, sc_apply]
  congr 2
  funext k
  exact sc_apply x r k

/-- The rows' log-sum-exp, as a column. -/
def ls (x : Vec Ideal S4096x360 .f32) : FVec Ideal S4096x1 .f32 :=
  log (shapeCast S4096x1 (multiReduction .add [1] S4096 (exp (sh x)) 0x00000000#32
    reduces_S4096x360_S4096 (.inl rfl) rfl) shapeCasts_S4096_S4096x1)

theorem ls_apply (x : Vec Ideal S4096x360 .f32) (r : Fin 4096) (c : Fin 1) : ls x (ix2 r c) = lse (rowAt x r) := by
  unfold ls lse
  show Ideal.log (shapeCast S4096x1 _ _ (ix2 r c)) = _
  rw [col_apply, laneSum_apply]
  congr 1
  exact Finset.sum_congr rfl fun j _ => by
    show Ideal.exp (sh x (ix2 r j)) = _
    rw [sh_apply]

/-- The rows' shifted entries at their labels, as a column: a lane sum of the one-hot selection. -/
def pk (x : Vec Ideal S4096x360 .f32) (l : Vec Ideal S4096x1 .i32) : FVec Ideal S4096x1 .f32 :=
  shapeCast S4096x1 (multiReduction .add [1] S4096
    (select (cmpi .eq (iota .tc S4096x360 32 [1] iota_S4096x360_d1_w32)
        (broadcastTo S4096x360 (shapeCast S4096x1 l shapeCasts_S4096x1_S4096x1) broadcasts_S4096x1_S4096x360))
      (sh x) (broadcast S4096x360 (Scalar.ofBits .f32 0x00000000#32)))
    0x00000000#32 reduces_S4096x360_S4096 (.inl rfl) rfl) shapeCasts_S4096_S4096x1

theorem pk_apply (x : Vec Ideal S4096x360 .f32) (l : Vec Ideal S4096x1 .i32) (r : Fin 4096) (c : Fin 1) :
    pk x l (ix2 r c) = pick (shifted (rowAt x r)) (l (ix2 r 0)) := by
  unfold pk pick
  rw [col_apply, laneSum_apply]
  refine Finset.sum_congr rfl fun j _ => ?_
  have e1 : iota .tc S4096x360 32 [1] iota_S4096x360_d1_w32 (ix2 r j) = BitVec.ofNat 32 j.val :=
    iota_single_apply _ _ _ _ _ _
  have e2 : broadcastTo S4096x360 (shapeCast S4096x1 l shapeCasts_S4096x1_S4096x1) broadcasts_S4096x1_S4096x360 (ix2 r j)
      = l (ix2 r 0) := by rw [spread_apply, shapeCast_self]
  have e3 : broadcast S4096x360 (Scalar.ofBits (F := Ideal) .f32 0x00000000#32) (ix2 r j) = (0 : EReal) :=
    Ideal.ofBits_zero_f32
  simp only [select, cmpi]
  rw [e1, e2, e3, sh_apply]

/-- The update, stage by stage. -/
theorem pay2_stages (x : Vec Ideal S4096x360 .f32) (l : Vec Ideal S4096x1 .i32) (a : Vec Ideal S1x1 .f32) :
    k0_pay2 (F := Ideal) x l a
      = shapeCast S1x1 (addf a (shapeCast S1x1 (multiReduction .add [0] S1 (subf (pk x l) (ls x)) 0x00000000#32
          reduces_S4096x1_S1 (.inl rfl) rfl) shapeCasts_S1_S1x1)) shapeCasts_S1x1_S1x1 := rfl

/-- The sum of a tile's rows' losses. -/
def tileSum (x : Vec Ideal S4096x360 .f32) (l : Vec Ideal S4096x1 .i32) : EReal :=
  ∑ r : Fin 4096, rowLoss (rowAt x r) (l (ix2 r 0))

/-- THE UPDATE: an accumulator holding `e` ends holding `e` plus the tile's sum. -/
theorem upd_eq (x : Vec Ideal S4096x360 .f32) (l : Vec Ideal S4096x1 .i32) (e : EReal) :
    k0_pay2 (F := Ideal) x l (fun _ => e) = fun _ => e + tileSum x l := by
  funext i
  rw [pay2_stages, shapeCast_self, addf_apply, one_apply, rowSum_apply]
  unfold tileSum rowLoss
  congr 1
  exact Finset.sum_congr rfl fun r _ => by
    rw [subf_apply, pk_apply, ls_apply]

/-- The reset's zero block. -/
theorem pay1_eq : k0_pay1 (F := Ideal) = fun _ => (0 : EReal) := by
  funext i
  unfold k0_pay1
  rw [shapeCast_self]
  exact Ideal.ofBits_zero_f32

/-- The output block: the accumulator's value in every entry. -/
theorem pay3_eq (e : EReal) : k0_pay3 (F := Ideal) (fun _ => e) = fun _ => e := by
  funext i
  unfold k0_pay3
  rw [fill_apply, shapeCast_self]

end Cert.KernelIdeal.TileValue

end
-- ==== Proof.KernelAcc.lean ====
/-
  The accumulator over the grid, as mathematics.

  Point `n` of the 32-point grid handles tile `n` (4096 rows); the accumulator restarts at points 0 and 16
  (one run of 16 tiles per core) and the output block is written at points 15 and 31. With
  `tileAt n` the sum of tile `n`'s rows' losses, the accumulator after point `n` holds `accAt tileAt n`,
  and at points 15 and 31 the output block holds that value in every entry. By induction on the point.
-/
import proofs.«417655_j70643622085336_2_alg».proof.Proof.KernelPieces
import proofs.«417655_j70643622085336_2_alg».proof.Proof.TileValue

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.TileValue Cert.RowLoss

variable (m : (ℓ : Loc nD τ sig) → Buf (Elt Ideal) ℓ)

/-- The tile the body finds at point `t`, and its labels, at their literal types. -/
abbrev xblk (c : Dev nD) (t : Fin cfg0.N) : Vec Ideal S4096x360 .f32 := iblk m c 0 t
abbrev lblk (c : Dev nD) (t : Fin cfg0.N) : Vec Ideal S4096x1 .i32 := iblk m c 1 t

/-- The sum of the rows' losses of the tile at point `n` (zero past the grid). -/
def tileAt (c : Dev nD) (n : ℕ) : EReal :=
  if h : n < cfg0.N then tileSum (xblk m c ⟨n, h⟩) (lblk m c ⟨n, h⟩) else 0

theorem tileAt_of_lt (c : Dev nD) (n : ℕ) (h : n < cfg0.N) :
    tileAt m c n = tileSum (xblk m c ⟨n, h⟩) (lblk m c ⟨n, h⟩) := dif_pos h

/-- The accumulation restarts at a multiple of 16 … -/
theorem accAt_restart (P : ℕ → EReal) (n : ℕ) (h : (n + 1) % 16 = 0) : accAt P (n + 1) = 0 + P (n + 1) := by
  show (if (n + 1) % 16 = 0 then 0 + P (n + 1) else accAt P n + P (n + 1)) = _
  rw [if_pos h]

/-- … and adds the tile's sum elsewhere. -/
theorem accAt_step (P : ℕ → EReal) (n : ℕ) (h : ¬(n + 1) % 16 = 0) : accAt P (n + 1) = accAt P n + P (n + 1) := by
  show (if (n + 1) % 16 = 0 then 0 + P (n + 1) else accAt P n + P (n + 1)) = _
  rw [if_neg h]

/-- THE ACCUMULATOR after point `n`. -/
theorem acc_eq (c : Dev nD) : ∀ (n : ℕ) (hn : n < cfg0.N), (outsAt0 m c n hn).2 = fun _ => accAt (tileAt m c) n
  | 0, hn => by
    have h0 : (⟨0, hn⟩ : Fin cfg0.N).val % 16 = 0 := rfl
    have h1 : ¬(⟨0, hn⟩ : Fin cfg0.N).val % 16 = 15 := by show ¬(0 : ℕ) % 16 = 15; decide
    rw [outsAt0_A m c ⟨0, hn⟩ h0 h1]
    dsimp only
    rw [sout_A, pay1_eq]
    show k0_pay2 (xblk m c ⟨0, hn⟩) (lblk m c ⟨0, hn⟩) (fun _ => (0 : EReal)) = _
    rw [upd_eq, ← tileAt_of_lt m c 0 hn]
    rfl
  | n + 1, hn => by
    have ih := acc_eq c n (Nat.lt_of_succ_lt hn)
    by_cases h0 : (n + 1) % 16 = 0
    · have h1 : ¬(n + 1) % 16 = 15 := by omega
      rw [outsAt0_A m c ⟨n + 1, hn⟩ h0 h1]
      dsimp only
      rw [sout_A, pay1_eq]
      show k0_pay2 (xblk m c ⟨n + 1, hn⟩) (lblk m c ⟨n + 1, hn⟩) (fun _ => (0 : EReal)) = _
      rw [upd_eq, ← tileAt_of_lt m c (n + 1) hn, accAt_restart _ _ h0]
    · by_cases h1 : (n + 1) % 16 = 15
      · rw [outsAt0_C m c ⟨n + 1, hn⟩ h0 h1]
        dsimp only
        rw [sout_C]
        show k0_pay2 (xblk m c ⟨n + 1, hn⟩) (lblk m c ⟨n + 1, hn⟩) (outsAt0 m c n _).2 = _
        rw [ih, upd_eq, ← tileAt_of_lt m c (n + 1) hn, accAt_step _ _ h0]
      · rw [outsAt0_B m c ⟨n + 1, hn⟩ h0 h1]
        dsimp only
        rw [sout_B]
        show k0_pay2 (xblk m c ⟨n + 1, hn⟩) (lblk m c ⟨n + 1, hn⟩) (outsAt0 m c n _).2 = _
        rw [ih, upd_eq, ← tileAt_of_lt m c (n + 1) hn, accAt_step _ _ h0]

/-- THE OUTPUT BLOCK after a core's last point: the accumulator's value in every entry. -/
theorem out_eq (c : Dev nD) (n : ℕ) (hn : n < cfg0.N) (h15 : n % 16 = 15) :
    (outsAt0 m c n hn).1 = fun _ => accAt (tileAt m c) n := by
  obtain ⟨k, rfl⟩ : ∃ k, n = k + 1 := ⟨n - 1, by omega⟩
  have h0 : ¬(k + 1) % 16 = 0 := by omega
  have ih := acc_eq m c k (Nat.lt_of_succ_lt hn)
  rw [outsAt0_C m c ⟨k + 1, hn⟩ h0 h15]
  dsimp only
  rw [out_C]
  show k0_pay3 (k0_pay2 (xblk m c ⟨k + 1, hn⟩) (lblk m c ⟨k + 1, hn⟩) (outsAt0 m c k _).2) = _
  rw [ih, upd_eq, pay3_eq, ← tileAt_of_lt m c (k + 1) hn, accAt_step _ _ h0]

end Cert.KernelIdeal.KValue

end
-- ==== Proof.KernelResult.lean ====
/-
  The kernel's result.

  The 16 × 128 output array is written in two blocks of 8 rows: rows 0–7 by point 15 (the first core's
  accumulator after its 16 tiles), rows 8–15 by point 31 (the second core's). The host lines after the
  region read entries (0,0) and (8,0), add them, negate and divide by 360. The two accumulators add up
  to the sum over all 32 tiles, which is the sum over all 131072 rows.
-/
import proofs.«417655_j70643622085336_2_alg».proof.Proof.KernelAcc
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.TileValue Cert.RowLoss

variable (m : (ℓ : Loc nD τ sig) → Buf (Elt Ideal) ℓ) (ρ : Dev nD → PrngReg)

/-- The output array after the run: rows 0–7 at the accumulator after point 15, rows 8–15 after point 31. -/
def outArr (c : Dev nD) : S16x128.Idx → EReal := fun i => accAt (tileAt m c) (16 * ((i 0).val / 8) + 15)

/-- The output window's block index at point `t`: the core's number, column block 0. -/
theorem out_index : ∀ t : Fin cfg0.N, win0_2.index t (0 : Fin 2) = t.val / 16 ∧ win0_2.index t (1 : Fin 2) = 0 :=
  (by decide +kernel : ∀ t : Fin grid0.N, _)

/-- What a core's last point writes back is its block of `outArr`. -/
theorem flushed_eq (c : Dev nD) (t : Fin cfg0.N) (hf : (cfg0.win 2).flush t = true) :
    (dats m 0 c).flushed 2 t = ((cfg0.win 2).blk t).view.read (Elt Ideal) (outArr m c) := by
  have h15 : t.val % 16 = 15 := (flush0_2 t).mp hf
  show (cfg0.win 2).cut (grid0.coords t) ((dats m 0 c).after 2 t) = _
  rw [after0_2, out_eq m c t.val t.isLt h15]
  funext j
  show accAt (tileAt m c) t.val = outArr m c (((cfg0.win 2).blk t).view.emb j)
  unfold outArr
  have e : ((((cfg0.win 2).blk t).view.emb j) 0).val = win0_2.index t (0 : Fin 2) * 8 + 1 * (j 0).val := rfl
  rw [e, (out_index t).1]
  have hj : (j 0).val < 8 := (j 0).isLt
  congr 1
  omega

/-- An index of the array is in point `t`'s block iff each coordinate is in the block's range. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v1).slice (win0_2.rect t)).set ↔ _
  rw [View.set_slice_whole, Rect.mem_set_unit]
  exact Iff.rfl

/-- Every entry of the array is in the block of one of the two writing points. -/
theorem cover (i : S16x128.Idx) : ∃ t : Fin cfg0.N, (cfg0.win 2).flush t = true ∧ i ∈ ((cfg0.win 2).blk t).view.set := by
  have hi0 : (i 0).val < 16 := (i 0).isLt
  have hi1 : (i 1).val < 128 := (i 1).isLt
  have hN : cfg0.N = 32 := N_0
  have hlt : 16 * ((i 0).val / 8) + 15 < cfg0.N := by omega
  refine ⟨⟨16 * ((i 0).val / 8) + 15, hlt⟩, (flush0_2 _).mpr (by show (16 * ((i 0).val / 8) + 15) % 16 = 15; omega), ?_⟩
  rw [mem_blk]
  obtain ⟨e0, e1⟩ := out_index ⟨16 * ((i 0).val / 8) + 15, hlt⟩
  have e0' : win0_2.index ⟨16 * ((i 0).val / 8) + 15, hlt⟩ (0 : Fin 2) = (16 * ((i 0).val / 8) + 15) / 16 := e0
  intro a
  match a with
  | ⟨0, _⟩ =>
    show win0_2.index ⟨16 * ((i 0).val / 8) + 15, hlt⟩ (0 : Fin 2) * 8 ≤ (i 0).val ∧ (i 0).val < win0_2.index ⟨16 * ((i 0).val / 8) + 15, hlt⟩ (0 : Fin 2) * 8 + 8
    rw [e0']; omega
  | ⟨1, _⟩ =>
    show win0_2.index ⟨16 * ((i 0).val / 8) + 15, hlt⟩ (1 : Fin 2) * 128 ≤ (i 1).val ∧ (i 1).val < win0_2.index ⟨16 * ((i 0).val / 8) + 15, hlt⟩ (1 : Fin 2) * 128 + 128
    rw [e1]; omega

/-- THE OUTPUT ARRAY after the region. -/
theorem final_out (c : Dev nD) : (dats m 0 c).arrAt 2 cfg0.N = outArr m c :=
  (dats m 0 c).arrAt_eq_of_cover 2 (outArr m c) (flushed_eq m c) (cover)

/-- The host lines after the region as one function of the output array: entries (0,0) and (8,0) added, negated,
    divided by the word for 360. -/
def tailOf (A : S16x128.Idx → EReal) : S1.Idx → EReal :=
  shapeCast S1 (Host.divf (Host.negf (addf
      (shapeCast S_ (extractStridedSlice S1x1 ![0, 0] A Gen.slices_S16x128_S1x1_0_0) Gen.shapeCasts_S1x1_S_)
      (shapeCast S_ (extractStridedSlice S1x1 ![8, 0] A Gen.slices_S16x128_S1x1_8_0) Gen.shapeCasts_S1x1_S_)))
    (constant (F := Ideal) S_ .f32 0x43B40000#32)) Gen.shapeCasts_S_S1

/-- A one-entry slice read as a scalar is the array's entry at the slice's offset. -/
theorem slice_scalar (A : S16x128.Idx → EReal) (o : Fin 16) (h : S16x128.Slices ![o.val, 0] S1x1) (j : S_.Idx) :
    shapeCast S_ (extractStridedSlice S1x1 ![o.val, 0] A h) Gen.shapeCasts_S1x1_S_ j = A (ix2 o 0) := by
  unfold shapeCast extractStridedSlice
  refine congrArg A (funext fun a => Fin.ext ?_)
  match a with
  | ⟨0, _⟩ =>
    have h0 : (Shape.reshapeEquiv Gen.shapeCasts_S1x1_S_ j (0 : Fin 2)).val < 1 := (Shape.reshapeEquiv Gen.shapeCasts_S1x1_S_ j (0 : Fin 2)).isLt
    show o.val + (Shape.reshapeEquiv Gen.shapeCasts_S1x1_S_ j (0 : Fin 2)).val = o.val
    omega
  | ⟨1, _⟩ =>
    have h1 : (Shape.reshapeEquiv Gen.shapeCasts_S1x1_S_ j (1 : Fin 2)).val < 1 := (Shape.reshapeEquiv Gen.shapeCasts_S1x1_S_ j (1 : Fin 2)).isLt
    show 0 + (Shape.reshapeEquiv Gen.shapeCasts_S1x1_S_ j (1 : Fin 2)).val = 0
    omega

theorem tailOf_apply (A : S16x128.Idx → EReal) (i : S1.Idx) :
    tailOf A i = Ideal.div (-(A (ix2 0 0) + A (ix2 8 0))) (Ideal.ofBits .f32 0x43B40000#32) := by
  show Ideal.div (-(shapeCast S_ (extractStridedSlice S1x1 ![0, 0] A Gen.slices_S16x128_S1x1_0_0) Gen.shapeCasts_S1x1_S_ _
      + shapeCast S_ (extractStridedSlice S1x1 ![8, 0] A Gen.slices_S16x128_S1x1_8_0) Gen.shapeCasts_S1x1_S_ _)) _ = _
  have e0 : shapeCast S_ (extractStridedSlice S1x1 ![0, 0] A Gen.slices_S16x128_S1x1_0_0) Gen.shapeCasts_S1x1_S_
      (Shape.reshapeEquiv Gen.shapeCasts_S_S1 i) = A (ix2 0 0) := slice_scalar A 0 _ _
  have e8 : shapeCast S_ (extractStridedSlice S1x1 ![8, 0] A Gen.slices_S16x128_S1x1_8_0) Gen.shapeCasts_S1x1_S_
      (Shape.reshapeEquiv Gen.shapeCasts_S_S1 i) = A (ix2 8 0) := slice_scalar A 8 _ _
  rw [e0, e8]
  rfl

/-- The host lines after the region, read. -/
theorem tail_eq (c : Dev nD) :
    Pipeline.afterTail₀ cfgs (dats m) 0 (V0 m) [hostOps1] c main_v9
      = fun _ => Ideal.div (-(accAt (tileAt m c) 15 + accAt (tileAt m c) 31)) (Ideal.ofBits .f32 0x43B40000#32) := by
  unfold Pipeline.afterTail₀
  show StableHlo.after hostOps1 _ (Proc.devRef .tc main_v9) = _
  after_results
  rw [show Pipeline.withArrays (cfgs 0).spec c (V0 m c) (fun w => (dats m 0 c).arrAt w (cfgs 0).N) (Proc.devRef .tc main_v1)
        = outArr m c from (Pipeline.withArrays_arr spec0 launch0.win.arr_inj c _ _ 2).trans (final_out m c)]
  show tailOf (outArr m c) = _
  funext i
  rw [tailOf_apply]
  rfl

/-! ## The tiles are the array's row bands -/

/-- The input windows' block indices at point `t`: row band `t`, column block 0. -/
theorem in_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `r` of the tile at point `t` is row `4096 t + r` of the predictions. -/
theorem xblk_apply (c : Dev nD) (t : Fin 32) (ht : t.val < cfg0.N) (r : Fin 4096) (j : Fin 360) :
    xblk m c ⟨t.val, ht⟩ (ix2 r j) = m ((c : Thread nD τ).loc main_arg0) (ix2 (rowOf t r) j) := by
  show iblk m c 0 ⟨t.val, ht⟩ (ix2 r j) = _
  unfold iblk
  rw [View.read_apply]
  show V m c main_arg0 _ = _
  rw [V_main_arg0]
  congr 1
  funext a
  apply Fin.ext
  have i0 : win0_0.index ⟨t.val, ht⟩ (0 : Fin 2) = t.val := (in_index ⟨t.val, ht⟩).1
  have i1 : win0_0.index ⟨t.val, ht⟩ (1 : Fin 2) = 0 := (in_index ⟨t.val, ht⟩).2.1
  match a with
  | ⟨0, _⟩ =>
    show win0_0.index ⟨t.val, ht⟩ (0 : Fin 2) * 4096 + 1 * r.val = t.val * 4096 + r.val
    rw [i0]; omega
  | ⟨1, _⟩ =>
    show win0_0.index ⟨t.val, ht⟩ (1 : Fin 2) * 360 + 1 * j.val = j.val
    rw [i1]; omega

/-- The label column the region finds is the labels, one per row. -/
theorem V_labels (c : Dev nD) :
    (V m c main_v0 : S131072x1.Idx → BitVec 32)
      = shapeCast S131072x1 (m ((c : Thread nD τ).loc main_arg1)) Facts₀.shapeCasts_S131072_S131072x1 := by
  show StableHlo.after hostOps0 (fun b => m (c, b)) (Proc.devRef .tc main_v0) = _
  after_results
  rfl

/-- The label of row `r` of the tile at point `t` is label `4096 t + r`. -/
theorem lblk_apply (c : Dev nD) (t : Fin 32) (ht : t.val < cfg0.N) (r : Fin 4096) :
    lblk m c ⟨t.val, ht⟩ (ix2 r 0) = m ((c : Thread nD τ).loc main_arg1) (ix1 (rowOf t r)) := by
  show iblk m c 1 ⟨t.val, ht⟩ (ix2 r 0) = _
  unfold iblk
  rw [View.read_apply]
  show V m c main_v0 _ = _
  rw [V_labels]
  refine shapeCast_apply _ _ _ (ix1 (rowOf t r)) ?_
  rw [Shape.rowMajor_val_one, Shape.rowMajor_val_two]
  have i0 : win0_1.index ⟨t.val, ht⟩ (0 : Fin 2) = t.val := (in_index ⟨t.val, ht⟩).2.2.1
  have i1 : win0_1.index ⟨t.val, ht⟩ (1 : Fin 2) = 0 := (in_index ⟨t.val, ht⟩).2.2.2
  show t.val * 4096 + r.val = (win0_1.index ⟨t.val, ht⟩ (0 : Fin 2) * 4096 + 1 * r.val) * 1 + (win0_1.index ⟨t.val, ht⟩ (1 : Fin 2) * 1 + 1 * 0)
  rw [i0, i1]; omega

/-- The two accumulators together hold the loss's sum over all 131072 rows. -/
theorem kernel_total (c : Dev nD) (d : EReal) :
    Ideal.div (-(accAt (tileAt m c) 15 + accAt (tileAt m c) 31)) d
      = total (fun b j => m ((c : Thread nD τ).loc main_arg0) (ix2 b j)) (fun b => m ((c : Thread nD τ).loc main_arg1) (ix1 b)) d := by
  unfold total
  rw [accAt_sum, sum_rows]
  refine congrArg (fun s : EReal => Ideal.div (-s) d) ?_
  refine Finset.sum_congr rfl fun t _ => ?_
  have ht : t.val < cfg0.N := by rw [show cfg0.N = 32 from N_0]; exact t.isLt
  rw [tileAt_of_lt m c t.val ht]
  unfold tileSum
  refine Finset.sum_congr rfl fun r _ => ?_
  have ex : rowAt (xblk m c ⟨t.val, ht⟩) r = fun j => m ((c : Thread nD τ).loc main_arg0) (ix2 (rowOf t r) j) :=
    funext fun j => xblk_apply m c t ht r j
  rw [ex, lblk_apply m c t ht r]

/-- THE KERNEL'S RUN, read: the result buffer ends at the loss of the arguments, the arguments unchanged. -/
theorem run : θ_run defs (onTc (τ := τ) (main (F := Ideal))) ⟨m, fun _ => 0, ρ⟩ fun r => ∀ c : Dev nD,
      r.2.mem ((c.tc : Thread nD τ).loc main_v9)
          = (fun _ => total (fun b j => m ((c.tc : Thread nD τ).loc main_arg0) (ix2 b j))
              (fun b => m ((c.tc : Thread nD τ).loc main_arg1) (ix1 b)) (Ideal.ofBits .f32 0x43B40000#32))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v9 (Pipeline.mem_restRefs_of main_v9 (by decide) (by decide))).trans
        ((tail_eq m c).trans (funext fun _ => kernel_total m c _)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KValue

end
-- ==== Proof.RefStages.lean ====
/-
  The reference's run, read stretch by stretch.

  @main's 51 host operations, in program order, fall into five stretches, the fourth read in two parts:
    A   the L1 normalisation                (6 operations)  preds            ↦ scaled
    B   the log-softmax                     (15)            scaled           ↦ log-probabilities
    C   the labels as a column              (1)             labels           ↦ label column
    D1  the take's index: negative labels
        wrapped, a third axis added         (8)             label column     ↦ index array
    D2  the take's range test, gather, fill (14)            log-probs, index array ↦ the gathered column
    E   the sum, the sign and the scale     (7)             gathered column  ↦ the result
  Each stretch, run from ANY buffer contents, leaves in its result buffer the stage function of what its
  input buffers held, and leaves the two argument buffers alone; chained, the whole line leaves the last
  stage of the arguments in the result buffer.
-/
import proofs.«417655_j70643622085336_2_alg».proof.Proof.RefRead
import Idealize.ShloMosaic.Lib.StableHlo.Run
import Idealize.ShloMosaic.Lib.Pipeline.Frame

noncomputable section

namespace Cert.ReferenceIdeal.RefStages

open Cert.ReferenceIdeal Cert.ReferenceIdeal.Gen Idealize.ShloMosaic Idealize.ShloMosaic.TcCoe Idealize.SL.Sem Idealize.ShloMosaic.StableHlo
open Cert.ReferenceIdeal.RefRead

variable {F : FTy → Type} [FloatOps F]

/-- Stretch A: the L1 normalisation. -/
abbrev opsA : List (HloOp τ sig (Elt F)) :=
  [ unary main_arg0 main_v0 (Host.absf : (⟨S131072x360, .f32⟩ : BufTy).Contents (Elt F) → (⟨S131072x360, .f32⟩ : BufTy).Contents (Elt F)),
    nullary main_cst (constant S_ .f32 0x00000000#32),
    binary main_v0 main_cst main_v1 ((fun x v => Host.reduceAdd x v reducesTo_S131072x360_S131072_d1 h_S_) : (⟨S131072x360, .f32⟩ : BufTy).Contents (Elt F) → (⟨S_, .f32⟩ : BufTy).Contents (Elt F) → (⟨S131072, .f32⟩ : BufTy).Contents (Elt F)),
    unary main_v1 main_v2 (broadcastInDim S131072x1 ![0] bcast_S131072_S131072x1_0 : (⟨S131072, .f32⟩ : BufTy).Contents (Elt F) → (⟨S131072x1, .f32⟩ : BufTy).Contents (Elt F)),
    unary main_v2 main_v3 (broadcastInDim S131072x360 ![0, 1] bcast_S131072x1_S131072x360_0_1 : (⟨S131072x1, .f32⟩ : BufTy).Contents (Elt F) → (⟨S131072x360, .f32⟩ : BufTy).Contents (Elt F)),
    binary main_arg0 main_v3 main_v4 (Host.divf : (⟨S131072x360, .f32⟩ : BufTy).Contents (Elt F) → (⟨S131072x360, .f32⟩ : BufTy).Contents (Elt F) → (⟨S131072x360, .f32⟩ : BufTy).Contents (Elt F)) ]

/-- Stretch B: the log-softmax. -/
abbrev opsB : List (HloOp τ sig (Elt F)) :=
  [ TRef.nullary (TRef.of (T := ⟨S_, .f32⟩) main_call0_cst) (constant S_ .f32 0xFF800000#32),
    TRef.binary (TRef.of (T := ⟨S131072x360, .f32⟩) main_v4) (TRef.of (T := ⟨S_, .f32⟩) main_call0_cst) (TRef.of (T := ⟨S131072, .f32⟩) main_call0_v0) (fun x v => Host.reduce FloatOps.maximumf x v reducesTo_S131072x360_S131072_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S131072, .f32⟩) main_call0_v1) (broadcastInDim S131072 ![] bcast_S_S131072),
    TRef.binary (TRef.of (T := ⟨S131072, .f32⟩) main_call0_v1) (TRef.of (T := ⟨S131072, .f32⟩) main_call0_v0) (TRef.of (T := ⟨S131072, .f32⟩) main_call0_v2) maximumf,
    TRef.unary (TRef.of (T := ⟨S131072, .f32⟩) main_call0_v2) (TRef.of (T := ⟨S131072x1, .f32⟩) main_call0_v3) (broadcastInDim S131072x1 ![0] bcast_S131072_S131072x1_0),
    TRef.unary (TRef.of (T := ⟨S131072x1, .f32⟩) main_call0_v3) (TRef.of (T := ⟨S131072x360, .f32⟩) main_call0_v4) (broadcastInDim S131072x360 ![0, 1] bcast_S131072x1_S131072x360_0_1),
    TRef.binary (TRef.of (T := ⟨S131072x360, .f32⟩) main_v4) (TRef.of (T := ⟨S131072x360, .f32⟩) main_call0_v4) (TRef.of (T := ⟨S131072x360, .f32⟩) main_call0_v5) subf,
    TRef.unary (TRef.of (T := ⟨S131072x360, .f32⟩) main_call0_v5) (TRef.of (T := ⟨S131072x360, .f32⟩) main_call0_v6) Host.exp,
    TRef.nullary (TRef.of (T := ⟨S_, .f32⟩) main_call0_cst_1) (constant S_ .f32 0x00000000#32),
    TRef.binary (TRef.of (T := ⟨S131072x360, .f32⟩) main_call0_v6) (TRef.of (T := ⟨S_, .f32⟩) main_call0_cst_1) (TRef.of (T := ⟨S131072, .f32⟩) main_call0_v7) (fun x v => Host.reduceAdd x v reducesTo_S131072x360_S131072_d1 h_S_),
    TRef.unary (TRef.of (T := ⟨S131072, .f32⟩) main_call0_v7) (TRef.of (T := ⟨S131072x1, .f32⟩) main_call0_v8) (broadcastInDim S131072x1 ![0] bcast_S131072_S131072x1_0),
    TRef.unary (TRef.of (T := ⟨S131072x1, .f32⟩) main_call0_v8) (TRef.of (T := ⟨S131072x1, .f32⟩) main_call0_v9) Host.log,
    TRef.unary (TRef.of (T := ⟨S131072x1, .f32⟩) main_call0_v9) (TRef.of (T := ⟨S131072x360, .f32⟩) main_call0_v10) (broadcastInDim S131072x360 ![0, 1] bcast_S131072x1_S131072x360_0_1),
    TRef.binary (TRef.of (T := ⟨S131072x360, .f32⟩) main_call0_v5) (TRef.of (T := ⟨S131072x360, .f32⟩) main_call0_v10) (TRef.of (T := ⟨S131072x360, .f32⟩) main_v5) subf ]

/-- Stretch C: the labels as a column. -/
abbrev opsC : List (HloOp τ sig (Elt F)) :=
  [ unary main_arg1 main_v6 (broadcastInDim S131072x1 ![0] bcast_S131072_S131072x1_0 : (⟨S131072, .i32⟩ : BufTy).Contents (Elt F) → (⟨S131072x1, .i32⟩ : BufTy).Contents (Elt F)) ]

/-- Stretch D, first part: the label column wrapped into the row and given its third axis. -/
abbrev opsD1 : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S131072x1, .i32⟩) main_call1_v0) (broadcastInDim S131072x1 ![] bcast_S_S131072x1),
    TRef.binary (TRef.of (T := ⟨S131072x1, .i32⟩) main_v6) (TRef.of (T := ⟨S131072x1, .i32⟩) main_call1_v0) (TRef.of (T := ⟨S131072x1, .i1⟩) main_call1_v1) (cmpi .slt),
    TRef.nullary (TRef.of (T := ⟨S_, .i32⟩) main_call1_c_0) (constantI S_ 32 360#32),
    TRef.unary (TRef.of (T := ⟨S_, .i32⟩) main_call1_c_0) (TRef.of (T := ⟨S131072x1, .i32⟩) main_call1_v2) (broadcastInDim S131072x1 ![] bcast_S_S131072x1),
    TRef.binary (TRef.of (T := ⟨S131072x1, .i32⟩) main_v6) (TRef.of (T := ⟨S131072x1, .i32⟩) main_call1_v2) (TRef.of (T := ⟨S131072x1, .i32⟩) main_call1_v3) addi,
    TRef.ternary (TRef.of (T := ⟨S131072x1, .i1⟩) main_call1_v1) (TRef.of (T := ⟨S131072x1, .i32⟩) main_call1_v3) (TRef.of (T := ⟨S131072x1, .i32⟩) main_v6) (TRef.of (T := ⟨S131072x1, .i32⟩) main_call1_v4) select,
    TRef.reshape (TRef.of (T := ⟨S131072x1, .i32⟩) main_call1_v4) (TRef.of (T := ⟨S131072x1x1, .i32⟩) main_call1_v5) rfl shapeCasts_S131072x1_S131072x1x1 ]

/-- Stretch D, second part: the range test, the gather and the fill. -/
abbrev opsD2 : List (HloOp τ sig (Elt F)) :=
  [ TRef.nullary (TRef.of (T := ⟨S1, .i32⟩) main_call1_c_1) (constantI S1 32 359#32),
    TRef.nullary (TRef.of (T := ⟨S_, .i32⟩) main_call1_c_2) (constantI S_ 32 0#32),
    TRef.unary (TRef.of (T := ⟨S_, .i32⟩) main_call1_c_2) (TRef.of (T := ⟨S131072x1x1, .i32⟩) main_call1_v6) (broadcastInDim S131072x1x1 ![] bcast_S_S131072x1x1),
    TRef.binary (TRef.of (T := ⟨S131072x1x1, .i32⟩) main_call1_v5) (TRef.of (T := ⟨S131072x1x1, .i32⟩) main_call1_v6) (TRef.of (T := ⟨S131072x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S131072x1x1, .i32⟩) main_call1_v9) (broadcastInDim S131072x1x1 ![0, 1, 2] bcast_S1x1x1_S131072x1x1_0_1_2),
    TRef.binary (TRef.of (T := ⟨S131072x1x1, .i32⟩) main_call1_v5) (TRef.of (T := ⟨S131072x1x1, .i32⟩) main_call1_v9) (TRef.of (T := ⟨S131072x1x1, .i1⟩) main_call1_v10) (cmpi .sle),
    TRef.binary (TRef.of (T := ⟨S131072x1x1, .i1⟩) main_call1_v7) (TRef.of (T := ⟨S131072x1x1, .i1⟩) main_call1_v10) (TRef.of (T := ⟨S131072x1x1, .i1⟩) main_call1_v11) andi,
    TRef.nullary (TRef.of (T := ⟨S_, .i1⟩) main_call1_c_3) (constantI S_ 1 1#1),
    TRef.binary (TRef.of (T := ⟨S131072x1x1, .i1⟩) main_call1_v11) (TRef.of (T := ⟨S_, .i1⟩) main_call1_c_3) (TRef.of (T := ⟨S131072x1, .i1⟩) main_call1_v12) (fun x v => Host.reduce IntOp.andi x v reducesTo_S131072x1x1_S131072x1_d2 h_S_),
    TRef.binary (TRef.of (T := ⟨S131072x360, .f32⟩) main_v5) (TRef.of (T := ⟨S131072x1x1, .i32⟩) main_call1_v5) (TRef.of (T := ⟨S131072x1, .f32⟩) main_call1_v13) (fun x i => Host.gather gather_S131072x360_S131072x1x1_S131072x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S131072x1, .f32⟩) main_call1_v14) (broadcastInDim S131072x1 ![] bcast_S_S131072x1),
    TRef.ternary (TRef.of (T := ⟨S131072x1, .i1⟩) main_call1_v12) (TRef.of (T := ⟨S131072x1, .f32⟩) main_call1_v13) (TRef.of (T := ⟨S131072x1, .f32⟩) main_call1_v14) (TRef.of (T := ⟨S131072x1, .f32⟩) main_v7) select ]

/-- Stretch E: the sum, the sign and the scale. -/
abbrev opsE : List (HloOp τ sig (Elt F)) :=
  [ reshape main_v7 main_v8 rfl shapeCasts_S131072x1_S131072,
    nullary main_cst_0 (constant S_ .f32 0x00000000#32),
    binary main_v8 main_cst_0 main_v9 ((fun x v => Host.reduceAdd x v reducesTo_S131072_S_d0 h_S_) : (⟨S131072, .f32⟩ : BufTy).Contents (Elt F) → (⟨S_, .f32⟩ : BufTy).Contents (Elt F) → (⟨S_, .f32⟩ : BufTy).Contents (Elt F)),
    unary main_v9 main_v10 (Host.negf : (⟨S_, .f32⟩ : BufTy).Contents (Elt F) → (⟨S_, .f32⟩ : BufTy).Contents (Elt F)),
    nullary main_cst_1 (constant S_ .f32 0x43B40000#32),
    binary main_v10 main_cst_1 main_v11 (Host.divf : (⟨S_, .f32⟩ : BufTy).Contents (Elt F) → (⟨S_, .f32⟩ : BufTy).Contents (Elt F) → (⟨S_, .f32⟩ : BufTy).Contents (Elt F)),
    reshape main_v11 main_v12 rfl shapeCasts_S_S1 ]

/-- The line is its stretches, in order. -/
theorem ops_split : (Cert.ReferenceIdeal.RefRun.ops (F := F)) = opsA ++ (opsB ++ (opsC ++ (opsD1 ++ (opsD2 ++ opsE)))) := rfl

/-- Contents moved to a typed reference's buffer type and back are unchanged. -/
theorem ofBuf_toBuf {Val : EltTy → Type} {T : BufTy} (x : TRef sig T) (v : T.Contents Val) : x.ofBuf (x.toBuf v) = v := by
  obtain ⟨r, h, _, _⟩ := x
  subst h
  rfl

/-! ## Each stretch, from any contents -/

section Stretches
variable (W : Valuation τ sig (Elt F))

theorem stretchA :
    after opsA W (Proc.devRef .tc main_v4) = val_main_v4 (F := F) (W (Proc.devRef .tc main_arg0)) := by
  after_results
  rfl

theorem keepA0 : after opsA W (Proc.devRef .tc main_arg0) = W (Proc.devRef .tc main_arg0) := by after_results
theorem keepA1 : after opsA W (Proc.devRef .tc main_arg1) = W (Proc.devRef .tc main_arg1) := by after_results

theorem stretchB (x0 : (⟨S131072x360, .f32⟩ : BufTy).Contents (Elt F))
    (h4 : W (Proc.devRef .tc main_v4) = val_main_v4 (F := F) x0) :
    after opsB W (Proc.devRef .tc main_v5) = val_main_v5 (F := F) x0 := by
  after_results
  simp only [ofBuf_toBuf]
  rw [h4]
  rfl

theorem keepB0 : after opsB W (Proc.devRef .tc main_arg0) = W (Proc.devRef .tc main_arg0) := by after_results
theorem keepB1 : after opsB W (Proc.devRef .tc main_arg1) = W (Proc.devRef .tc main_arg1) := by after_results

theorem stretchC :
    after opsC W (Proc.devRef .tc main_v6) = val_main_v6 (F := F) (W (Proc.devRef .tc main_arg1)) := by
  after_results
  rfl

theorem keepC0 : after opsC W (Proc.devRef .tc main_arg0) = W (Proc.devRef .tc main_arg0) := by after_results
theorem keepC1 : after opsC W (Proc.devRef .tc main_arg1) = W (Proc.devRef .tc main_arg1) := by after_results
theorem keepC5 : after opsC W (Proc.devRef .tc main_v5) = W (Proc.devRef .tc main_v5) := by after_results

theorem stretchD1 (x1 : (⟨S131072, .i32⟩ : BufTy).Contents (Elt F))
    (h6 : W (Proc.devRef .tc main_v6) = val_main_v6 (F := F) x1) :
    after opsD1 W (Proc.devRef .tc main_call1_v5) = val_main_call1_v5 (F := F) x1 := by
  after_results
  simp only [ofBuf_toBuf]
  rw [h6]
  rfl

theorem keepD1_5 : after opsD1 W (Proc.devRef .tc main_v5) = W (Proc.devRef .tc main_v5) := by after_results
theorem keepD1_0 : after opsD1 W (Proc.devRef .tc main_arg0) = W (Proc.devRef .tc main_arg0) := by after_results
theorem keepD1_1 : after opsD1 W (Proc.devRef .tc main_arg1) = W (Proc.devRef .tc main_arg1) := by after_results

set_option maxRecDepth 200000 in
theorem stretchD2 (x0 : (⟨S131072x360, .f32⟩ : BufTy).Contents (Elt F)) (x1 : (⟨S131072, .i32⟩ : BufTy).Contents (Elt F))
    (h5 : W (Proc.devRef .tc main_v5) = val_main_v5 (F := F) x0)
    (h15 : W (Proc.devRef .tc main_call1_v5) = val_main_call1_v5 (F := F) x1) :
    after opsD2 W (Proc.devRef .tc main_v7) = val_main_v7 (F := F) x0 x1 := by
  after_results
  simp only [ofBuf_toBuf]
  rw [h5, h15]
  rfl

theorem keepD2_0 : after opsD2 W (Proc.devRef .tc main_arg0) = W (Proc.devRef .tc main_arg0) := by after_results
theorem keepD2_1 : after opsD2 W (Proc.devRef .tc main_arg1) = W (Proc.devRef .tc main_arg1) := by after_results

theorem stretchE (x0 : (⟨S131072x360, .f32⟩ : BufTy).Contents (Elt F)) (x1 : (⟨S131072, .i32⟩ : BufTy).Contents (Elt F))
    (h7 : W (Proc.devRef .tc main_v7) = val_main_v7 (F := F) x0 x1) :
    after opsE W (Proc.devRef .tc main_v12) = val_main_v12 (F := F) x0 x1 := by
  after_results
  rw [h7]
  rfl

theorem keepE0 : after opsE W (Proc.devRef .tc main_arg0) = W (Proc.devRef .tc main_arg0) := by after_results
theorem keepE1 : after opsE W (Proc.devRef .tc main_arg1) = W (Proc.devRef .tc main_arg1) := by after_results

end Stretches

/-! ## The whole line -/

section Line
variable (V : Valuation τ sig (Elt F))

/-- The whole line's fold is the stretches' folds, one after the other. -/
theorem after_ops :
    after (Cert.ReferenceIdeal.RefRun.ops (F := F)) V
      = after opsE (after opsD2 (after opsD1 (after opsC (after opsB (after opsA V))))) := by
  rw [ops_split, StableHlo.after_append, StableHlo.after_append, StableHlo.after_append, StableHlo.after_append,
    StableHlo.after_append]

theorem line_arg0 : after (Cert.ReferenceIdeal.RefRun.ops (F := F)) V (Proc.devRef .tc main_arg0) = V (Proc.devRef .tc main_arg0) := by
  rw [after_ops, keepE0, keepD2_0, keepD1_0, keepC0, keepB0, keepA0]

theorem line_arg1 : after (Cert.ReferenceIdeal.RefRun.ops (F := F)) V (Proc.devRef .tc main_arg1) = V (Proc.devRef .tc main_arg1) := by
  rw [after_ops, keepE1, keepD2_1, keepD1_1, keepC1, keepB1, keepA1]

/-- The result buffer ends at the last stage of what the argument buffers held. -/
theorem line_result :
    after (Cert.ReferenceIdeal.RefRun.ops (F := F)) V (Proc.devRef .tc main_v12)
      = val_main_v12 (F := F) (V (Proc.devRef .tc main_arg0)) (V (Proc.devRef .tc main_arg1)) := by
  rw [after_ops]
  refine stretchE _ _ _ (stretchD2 _ _ _ ?_ (stretchD1 _ _ ?_))
  · rw [keepD1_5, keepC5]
    refine stretchB _ _ ?_
    exact stretchA V
  · rw [stretchC, keepB1, keepA1]

end Line

/-- THE RUN: every weakly fair execution of the reference's @main terminates with the result buffer at the last
    stage of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
          = val_main_v12 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v12).trans (line_result _), (h c main_arg0).trans (line_arg0 _),
      (h c main_arg1).trans (line_arg1 _)⟩)
    (run_seq Cert.ReferenceIdeal.RefRun.scopedRefs_eq Cert.ReferenceIdeal.RefRun.scopedSems_eq defs main
      (fun _ => Cert.ReferenceIdeal.RefRun.ops) Cert.ReferenceIdeal.RefRun.main_eq (fun _ => Cert.ReferenceIdeal.RefRun.ops_sub) m ρ)

end Cert.ReferenceIdeal.RefStages

end
-- ==== Proof.RefOps.lean ====
/-
  Three of the reference's operations read at explicit coordinates, for any operand: the maximum-reduction along a row
  is the fold of the operation over the row's 360 columns; an and-reduction of bits that are all 1 is 1; and the gather
  with batching axis 0 and collapsed axis 1 reads, in row `b`, the column its start index names when that index is a
  column number of the row.
-/
import proofs.«417655_j70643622085336_2_alg».proof.Proof.Gen.ReferenceIdeal
import Idealize.ShloMosaic.Lib.ValueIdx
import Idealize.ShloMosaic.Lib.StableHlo.Predicate
import Idealize.ShloMosaic.PureOps.Reduce

noncomputable section

namespace Cert.ReferenceIdeal.RefValue

open Cert.ReferenceIdeal Cert.ReferenceIdeal.Gen Idealize.ShloMosaic Idealize.ShloMosaic.ValueIdx

/-- Dropping axis 1 of a [131072, 360] array leaves [131072]. -/
theorem reduces_rows : S131072x360.Reduces [1] S131072 := by decide

/-- The index over row `b` with column `k` inserted is `(b, k)`. -/
theorem lift_row (b : Fin 131072) (k : Fin 360) : reduces_rows.lift (ix1 b) k = ix2 b k := by
  funext a
  match a with
  | ⟨0, _⟩ => exact Fin.ext rfl
  | ⟨1, _⟩ => exact Fin.ext rfl

/-- A reduction along axis 1 by a commutative and associative operation is, in row `b`, the fold over the row's columns. -/
theorem reduce_row {α : Type} (f : α → α → α) [Std.Commutative f] [Std.Associative f] (x : S131072x360.Idx → α)
    (init : S_.Idx → α) (b : Fin 131072) :
    Host.reduce f x init reducesTo_S131072x360_S131072_d1 h_S_ (ix1 b)
      = (Finset.univ : Finset (Fin 360)).fold f (init ix0) (fun k => x (ix2 b k)) := by
  rw [Host.reduce_eq_fold_single f x init reducesTo_S131072x360_S131072_d1 reduces_rows h_S_ (ix1 b),
    eq_ix0 (Shape.Idx.first h_S_)]
  exact Finset.fold_congr fun k _ => congrArg x (lift_row b k)

/-- A fold of `and` from 1 over bits that are all 1 is 1. -/
theorem fold_andi_one {ι : Type} (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, hf a (Finset.mem_cons_self a S), ih fun i hi => hf i (Finset.mem_cons_of_mem hi)]
    rfl

/-- An and-reduction, from 1, of an array of bits that are all 1 is 1 everywhere. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_fold, hinit]
  exact fold_andi_one _ _ fun i _ => hx i

/-- A word whose unsigned value is below 360, read signed and clamped into [0, 359], is its unsigned value. -/
theorem clamp_of_lt {w : BitVec 32} (hw : w.toNat < 360) : min w.toInt.toNat (360 - 1) = w.toNat := by
  rw [StableHlo.Predicate.toInt_eq_toNat_of_lt (by omega), Int.toNat_natCast]
  omega

/-- The gather's dimension numbers: batching axis 0, collapsed axis 1, start index map [1], index vector on axis 2. -/
abbrev gdims : GatherDims S131072x360 S131072x1x1 S131072x1 := gather_S131072x360_S131072x1x1_S131072x1_n_1_0_0_1_2_11

/-- The gather at `(b, 0)`: row `b` of the operand at the column the start index `idx[b, 0, 0]` names. -/
theorem gather_row {α : Type} (x : S131072x360.Idx → α) (idx : IVec S131072x1x1 32) (b : Fin 131072)
    (hb : (idx (ix3 b (0 : Fin 1) (0 : Fin 1))).toNat < 360) :
    Host.gather gdims x idx (ix2 b (0 : Fin 1)) = x (ix2 b ⟨(idx (ix3 b (0 : Fin 1) (0 : Fin 1))).toNat, hb⟩) := by
  unfold Host.gather
  congr 1
  funext a
  refine Fin.ext ?_
  show gdims.start (ix2 b (0 : Fin 1)) idx a + gdims.batchCoord (ix2 b (0 : Fin 1)) a + gdims.offCoord (ix2 b (0 : Fin 1)) a = _
  -- the batching axis: no start index, no offset; the batch coordinate is the result's row
  have h0 : gdims.start (ix2 b (0 : Fin 1)) idx (0 : Fin 2) + gdims.batchCoord (ix2 b (0 : Fin 1)) (0 : Fin 2)
      + gdims.offCoord (ix2 b (0 : Fin 1)) (0 : Fin 2) = b.val := by
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  -- the collapsed axis: the clamped start index, no batch coordinate, no offset
  have h1 : gdims.start (ix2 b (0 : Fin 1)) idx (1 : Fin 2) + gdims.batchCoord (ix2 b (0 : Fin 1)) (1 : Fin 2)
      + gdims.offCoord (ix2 b (0 : Fin 1)) (1 : Fin 2) = (idx (ix3 b (0 : Fin 1) (0 : Fin 1))).toNat := by
    rw [GatherDims.batchCoord_eq_zero _ _ _ (by decide),
      GatherDims.offCoord_eq_zero _ _ _ (fun h => ((GatherDims.mem_sKept _ _).mp h).1 (List.mem_singleton.mpr rfl)),
      Nat.add_zero]
    unfold GatherDims.start
    rw [dif_pos (show (1 : Fin 2) ∈ gdims.startIndexMap from List.mem_singleton.mpr rfl)]
    have hsi : gdims.siIdx (ix2 b (0 : Fin 1)) ⟨List.idxOf (1 : Fin 2) gdims.startIndexMap,
        List.idxOf_lt_length_iff.2 (List.mem_singleton.mpr rfl)⟩ = ix3 b (0 : Fin 1) (0 : Fin 1) := by
      funext c; refine Fin.ext ?_
      match c with
      | ⟨0, _⟩ => rfl
      | ⟨1, _⟩ => rfl
      | ⟨2, _⟩ => rfl
    rw [hsi]
    exact clamp_of_lt hb
  match a with
  | ⟨0, _⟩ => exact h0
  | ⟨1, _⟩ => exact h1

end Cert.ReferenceIdeal.RefValue

end
-- ==== Proof.RefRow.lean ====
/-
  The reference read one row at a time: each stage of its program, at explicit coordinates, is the
  specification's quantity for that row (L1 norm, scaled row, row maximum, shifted row, log-sum-exp),
  and the gathered entry at an in-range label is the row's contribution to the loss.
-/
import proofs.«417655_j70643622085336_2_alg».proof.Proof.RefRead
import proofs.«417655_j70643622085336_2_alg».proof.Proof.RefOps
import proofs.«417655_j70643622085336_2_alg».proof.Proof.RowLoss
import Idealize.ShloMosaic.Lib.ValueIdx
import Idealize.ShloMosaic.Lib.IdealHost
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.RefRead Idealize.ShloMosaic Idealize.ShloMosaic.ValueIdx
open Cert.RowLoss

/-- Row `b` of the predictions. -/
abbrev row (x0 : (⟨S131072x360, .f32⟩ : BufTy).Contents (Elt Ideal)) (b : Fin 131072) : Row := fun j => x0 (ix2 b j)

/-! ## The indices the layout operations read, at explicit coordinates -/

section Indices
variable (b : Fin 131072) (j k : Fin 360)

theorem idx_v1 : idx_main_v1 (ix1 b) k = ix2 b k := by
  funext a; match a with | ⟨0, _⟩ => rfl | ⟨1, _⟩ => rfl
theorem idx_v2_v3 : idx_main_v2 (idx_main_v3 (ix2 b j)) = ix1 b := by
  funext a; match a with | ⟨0, _⟩ => rfl
theorem idx_call0_v3_v4 : idx_main_call0_v3 (idx_main_call0_v4 (ix2 b j)) = ix1 b := by
  funext a; match a with | ⟨0, _⟩ => rfl
theorem idx_call0_v7 : idx_main_call0_v7 (ix1 b) k = ix2 b k := by
  funext a; match a with | ⟨0, _⟩ => rfl | ⟨1, _⟩ => rfl
theorem idx_call0_v8_v10 : idx_main_call0_v8 (idx_main_call0_v10 (ix2 b j)) = ix1 b := by
  funext a; match a with | ⟨0, _⟩ => rfl
theorem idx_v6 : idx_main_v6 (ix2 b (0 : Fin 1)) = ix1 b := by
  funext a; match a with | ⟨0, _⟩ => rfl
theorem idx_call1_v5 : idx_main_call1_v5 (ix3 b (0 : Fin 1) (0 : Fin 1)) = ix2 b (0 : Fin 1) := by
  funext a
  match a with
  | ⟨0, _⟩ => exact Fin.ext (by show ((b.val * 1 + 0) * 1 + 0) / 1 = b.val; omega)
  | ⟨1, _⟩ => rfl
theorem idx_v8 : idx_main_v8 (ix1 b) = ix2 b (0 : Fin 1) := by
  funext a
  match a with
  | ⟨0, _⟩ => exact Fin.ext (Nat.div_one _)
  | ⟨1, _⟩ => rfl

end Indices

variable (x0 : (⟨S131072x360, .f32⟩ : BufTy).Contents (Elt Ideal)) (x1 : (⟨S131072, .i32⟩ : BufTy).Contents (Elt Ideal))

/-- The f32 pattern of minus infinity is the bottom of the extended reals. -/
theorem ofBits_neg_inf_f32 : Ideal.ofBits .f32 0xFF800000#32 = ⊥ := by simp [Ideal.ofBits, Ideal.ieee]

/-! ## The scaled row -/

/-- The sum of absolute values along row `b` is the row's L1 norm. -/
theorem v1_row (b : Fin 131072) : val_main_v1 (F := Ideal) x0 (ix1 b) = l1 (row x0 b) := by
  rw [val_main_v1_apply, val_main_cst_apply, Ideal.ofBits_def, Ideal.ofBits_zero_f32, zero_add]
  unfold l1
  refine Finset.sum_congr rfl fun k _ => ?_
  rw [idx_v1, val_main_v0_apply, Ideal.hostAbsf_def, Ideal.absf_def]

/-- The quotient at `(b, j)` is the scaled row's entry. -/
theorem v4_elt (b : Fin 131072) (j : Fin 360) : val_main_v4 (F := Ideal) x0 (ix2 b j) = scaled (row x0 b) j := by
  rw [val_main_v4_apply, Ideal.hostDivf_def, val_main_v3_apply, val_main_v2_apply, idx_v2_v3, v1_row]
  rfl

/-! ## The log-softmax of the scaled row -/

/-- The maximum-reduction along row `b` is the row maximum of the scaled row. -/
theorem call0_v0_row (b : Fin 131072) : val_main_call0_v0 (F := Ideal) x0 (ix1 b) = rowMax (row x0 b) := by
  refine (reduce_row (FloatOps.maximumf (F := Ideal) (φ := .f32)) (val_main_v4 (F := Ideal) x0)
    (val_main_call0_cst (F := Ideal)) b).trans ?_
  rw [val_main_call0_cst_apply, Ideal.ofBits_def, ofBits_neg_inf_f32]
  unfold rowMax
  exact Finset.fold_congr fun k _ => v4_elt x0 b k

/-- Its maximum with minus infinity is the same. -/
theorem call0_v2_row (b : Fin 131072) : val_main_call0_v2 (F := Ideal) x0 (ix1 b) = rowMax (row x0 b) := by
  rw [val_main_call0_v2_apply, val_main_call0_v1_apply, val_main_call0_cst_0_apply, Ideal.maximumf_def, Ideal.ofBits_def,
    ofBits_neg_inf_f32, call0_v0_row]
  exact max_bot_left _

/-- The scaled entry minus the row maximum is the shifted row's entry. -/
theorem call0_v5_elt (b : Fin 131072) (j : Fin 360) : val_main_call0_v5 (F := Ideal) x0 (ix2 b j) = shifted (row x0 b) j := by
  rw [val_main_call0_v5_apply, Ideal.subf_def, v4_elt, val_main_call0_v4_apply, val_main_call0_v3_apply, idx_call0_v3_v4,
    call0_v2_row]
  rfl

/-- The sum of exponentials along row `b`. -/
theorem call0_v7_row (b : Fin 131072) :
    val_main_call0_v7 (F := Ideal) x0 (ix1 b) = ∑ j : Fin 360, Ideal.exp (shifted (row x0 b) j) := by
  rw [val_main_call0_v7_apply, val_main_call0_cst_1_apply, Ideal.ofBits_def, Ideal.ofBits_zero_f32, zero_add]
  refine Finset.sum_congr rfl fun k _ => ?_
  rw [idx_call0_v7, val_main_call0_v6_apply, Ideal.hostUnary_exp_def, call0_v5_elt]

/-- Its logarithm, broadcast back along the row, is the row's log-sum-exp. -/
theorem call0_v10_elt (b : Fin 131072) (j : Fin 360) : val_main_call0_v10 (F := Ideal) x0 (ix2 b j) = lse (row x0 b) := by
  rw [val_main_call0_v10_apply, val_main_call0_v9_apply, Ideal.hostUnary_log_def, val_main_call0_v8_apply, idx_call0_v8_v10,
    call0_v7_row]
  rfl

/-- The log-softmax at `(b, j)`. -/
theorem v5_elt (b : Fin 131072) (j : Fin 360) :
    val_main_v5 (F := Ideal) x0 (ix2 b j) = shifted (row x0 b) j - lse (row x0 b) := by
  rw [val_main_v5_apply, Ideal.subf_def, call0_v5_elt, call0_v10_elt]

/-! ## The label column, for a label in the row -/

/-- The label column at `(b, 0)` is the label of row `b`. -/
theorem v6_elt (b : Fin 131072) : val_main_v6 (F := Ideal) x1 (ix2 b (0 : Fin 1)) = x1 (ix1 b) := by
  rw [val_main_v6_apply, idx_v6]

/-- A label in the row is not negative, so the wrap-around select keeps it. -/
theorem call1_v4_elt (b : Fin 131072) (hb : (x1 (ix1 b)).toNat < 360) :
    val_main_call1_v4 (F := Ideal) x1 (ix2 b (0 : Fin 1)) = x1 (ix1 b) := by
  rw [val_main_call1_v4_apply, val_main_call1_v1_apply, v6_elt, val_main_call1_v0_apply, val_main_call1_c_apply]
  have hz : IntOp.cmpi .slt (x1 (ix1 b)) 0#32 = 0#1 := eq_zero_of_ne_one fun h =>
    Nat.not_lt_zero _ ((StableHlo.Predicate.slt_iff_toNat (by omega) (by decide)).1 h)
  rw [hz]
  exact select_zero _ _

/-- The start indices at `(b, 0, 0)` are the label of row `b`. -/
theorem call1_v5_elt (b : Fin 131072) (hb : (x1 (ix1 b)).toNat < 360) :
    val_main_call1_v5 (F := Ideal) x1 (ix3 b (0 : Fin 1) (0 : Fin 1)) = x1 (ix1 b) := by
  rw [val_main_call1_v5_apply, idx_call1_v5, call1_v4_elt x1 b hb]

/-- With every label in its row the range test is all ones. -/
theorem call1_v12_elt (hlab : ∀ b : Fin 131072, (x1 (ix1 b)).toNat < 360) (j : S131072x1.Idx) :
    val_main_call1_v12 (F := Ideal) x1 j = 1#1 := by
  unfold val_main_call1_v12
  refine reduce_andi_one _ _ _ _ rfl (fun i => ?_) j
  obtain ⟨c, u, v, rfl⟩ : ∃ (c : Fin 131072) (u v : Fin 1), i = ix3 c u v := ⟨i 0, i 1, i 2, eq_ix3 i⟩
  obtain rfl : u = 0 := Subsingleton.elim _ _
  obtain rfl : v = 0 := Subsingleton.elim _ _
  have hc := hlab c
  have h1 : IntOp.cmpi .sge (x1 (ix1 c)) 0#32 = 1#1 :=
    (StableHlo.Predicate.sge_iff_toNat (by omega) (by decide)).2 (Nat.zero_le _)
  have h2 : IntOp.cmpi .sle (x1 (ix1 c)) 359#32 = 1#1 :=
    (StableHlo.Predicate.sle_iff_toNat (by omega) (by decide)).2 (by show (x1 (ix1 c)).toNat ≤ 359; omega)
  rw [val_main_call1_v11_apply, val_main_call1_v7_apply, val_main_call1_v10_apply, call1_v5_elt x1 c hc,
    val_main_call1_v6_apply, val_main_call1_c_2_apply, val_main_call1_v9_apply, val_main_call1_v8_apply,
    val_main_call1_c_1_apply, h1, h2]
  rfl

/-- The gather at `(b, 0)` reads the log-softmax of row `b` at the label's column. -/
theorem call1_v13_elt (b : Fin 131072) (hb : (x1 (ix1 b)).toNat < 360) :
    val_main_call1_v13 (F := Ideal) x0 x1 (ix2 b (0 : Fin 1)) = val_main_v5 (F := Ideal) x0 (ix2 b ⟨(x1 (ix1 b)).toNat, hb⟩) := by
  have hb' : (val_main_call1_v5 (F := Ideal) x1 (ix3 b (0 : Fin 1) (0 : Fin 1))).toNat < 360 := by
    rw [call1_v5_elt x1 b hb]; exact hb
  refine (gather_row (val_main_v5 (F := Ideal) x0) (val_main_call1_v5 (F := Ideal) x1) b hb').trans ?_
  exact congrArg (fun k => val_main_v5 (F := Ideal) x0 (ix2 b k))
    (Fin.ext (congrArg BitVec.toNat (call1_v5_elt x1 b hb)))

/-- The gathered log-softmax at `(b, 0)` is row `b`'s contribution to the loss. -/
theorem v7_elt (hlab : ∀ b : Fin 131072, (x1 (ix1 b)).toNat < 360) (b : Fin 131072) :
    val_main_v7 (F := Ideal) x0 x1 (ix2 b (0 : Fin 1)) = rowLoss (row x0 b) (x1 (ix1 b)) := by
  rw [val_main_v7_apply, call1_v12_elt x1 hlab, select_one, call1_v13_elt x0 x1 b (hlab b), v5_elt]
  unfold rowLoss
  rw [pick_of_lt _ _ (hlab b)]

/-- The same as a vector over the rows. -/
theorem v8_elt (hlab : ∀ b : Fin 131072, (x1 (ix1 b)).toNat < 360) (b : Fin 131072) :
    val_main_v8 (F := Ideal) x0 x1 (ix1 b) = rowLoss (row x0 b) (x1 (ix1 b)) := by
  rw [val_main_v8_apply, idx_v8, v7_elt x0 x1 hlab b]

end Cert.ReferenceIdeal.RefValue

end
-- ==== Proof.PreRange.lean ====
/-
  The precondition's second conjunct, read back: every label word is a column number of the row.
-/
import proofs.«417655_j70643622085336_2_alg».proof.Proof.Gen.Pre_finite_inputs
import Idealize.ShloMosaic.Lib.ReduceAll
import Idealize.ShloMosaic.Lib.ValueIdx
import Idealize.ShloMosaic.Lib.IdealHost
import Idealize.ShloMosaic.Lib.StableHlo.Predicate

noncomputable section

namespace Cert.ReferenceIdeal.RefValue

open Idealize.ShloMosaic Idealize.ShloMosaic.ValueIdx

/-- A 32-bit word that is signed-at-least 0 and signed-below 360 has unsigned value below 360. -/
theorem toNat_lt_of_signed_range {a : BitVec 32} (h0 : IntOp.cmpi .sge a 0#32 = 1#1)
    (h1 : IntOp.cmpi .slt a 360#32 = 1#1) : a.toNat < 360 := by
  simp only [IntOp.cmpi, StableHlo.Predicate.ofBool_eq_one_iff, BitVec.sle, BitVec.slt, decide_eq_true_eq] at h0 h1
  have e0 : (0#32 : BitVec 32).toInt = 0 := by decide
  have e1 : (360#32 : BitVec 32).toInt = 360 := by decide
  rw [e0] at h0
  rw [e1] at h1
  rw [BitVec.toInt_eq_toNat_cond] at h0 h1
  have := a.isLt
  split at h0 <;> omega

/-- The scalar shape has one index. -/
instance : Subsingleton Cert.Pre_finite_inputs.S_.Idx := ⟨fun a b => funext fun d => d.elim0⟩

/-- Under the precondition every label lies in [0, 360). -/
theorem labels_in_range
    (x0 : FVec Ideal Cert.Pre_finite_inputs.S131072x360 .f32) (x1 : IVec Cert.Pre_finite_inputs.S131072 32)
    (h : Cert.Pre_finite_inputs.fn (F := Ideal) x0 x1 = fun _ => 1#1) (b : Fin 131072) :
    (x1 (ix1 b)).toNat < 360 := by
  have h' := congrFun h ix0
  dsimp only [Cert.Pre_finite_inputs.fn] at h'
  change IntOp.andi _ _ = 1#1 at h'
  obtain ⟨_, h9⟩ := IntOp.andi_eq_one.1 h'
  have hb := Host.reduce_andi_all _ _ _ _ _ h9 (ix1 b)
  change IntOp.andi (IntOp.cmpi .sge (x1 (ix1 b)) _) (IntOp.cmpi .slt (x1 (ix1 b)) _) = 1#1 at hb
  obtain ⟨h5, h7⟩ := IntOp.andi_eq_one.1 hb
  rw [broadcastInDim_scalar_apply] at h5 h7
  exact toNat_lt_of_signed_range h5 h7

end Cert.ReferenceIdeal.RefValue

end
-- ==== Proof.RefValue.lean ====
/-
  The reference's result, read as the loss of the specification: the sum over the rows of their contributions,
  negated and divided by the word for 360.
-/
import proofs.«417655_j70643622085336_2_alg».proof.Proof.RefRead
import proofs.«417655_j70643622085336_2_alg».proof.Proof.RefRow
import proofs.«417655_j70643622085336_2_alg».proof.Proof.PreRange
import proofs.«417655_j70643622085336_2_alg».proof.Proof.RowLoss
import Idealize.ShloMosaic.Lib.ValueIdx
import Idealize.ShloMosaic.Lib.ValueIdxRank1
import Idealize.ShloMosaic.PureOps.Ideal.Laws

noncomputable section

namespace Cert.ReferenceIdeal.RefValue

open Cert.ReferenceIdeal Cert.ReferenceIdeal.Gen Cert.ReferenceIdeal.RefRead Idealize.ShloMosaic Idealize.ShloMosaic.ValueIdx
open Cert.RowLoss

/-- The sum over all rows of the gathered log-softmax is the sum of the rows' contributions. -/
theorem v9_eq (x0 : (⟨S131072x360, .f32⟩ : BufTy).Contents (Elt Ideal)) (x1 : (⟨S131072, .i32⟩ : BufTy).Contents (Elt Ideal))
    (hlab : ∀ b : Fin 131072, (x1 (ix1 b)).toNat < 360) (i : S_.Idx) :
    val_main_v9 (F := Ideal) x0 x1 i = ∑ b : Fin 131072, rowLoss (row x0 b) (x1 (ix1 b)) := by
  rw [val_main_v9_apply, val_main_cst_0_apply, Ideal.ofBits_def, Ideal.ofBits_zero_f32, zero_add]
  refine ((Equiv.sum_comp (idxEquiv1 (n := 131072)).symm (val_main_v8 (F := Ideal) x0 x1)).symm).trans
    (Finset.sum_congr rfl fun b _ => ?_)
  exact v8_elt x0 x1 hlab b

/-- With every label in its row, the reference's result is the specification's loss at every index of its one-element array. -/
theorem result_eq
    (x0 : (⟨Cert.ReferenceIdeal.S131072x360, .f32⟩ : BufTy).Contents (Elt Ideal))
    (x1 : (⟨Cert.ReferenceIdeal.S131072, .i32⟩ : BufTy).Contents (Elt Ideal))
    (hlab : ∀ b : Fin 131072, (x1 (ix1 b)).toNat < 360) :
    Cert.ReferenceIdeal.RefRead.val_main_v12 (F := Ideal) x0 x1
      = fun _ => Cert.RowLoss.total (fun b j => x0 (ix2 b j)) (fun b => x1 (ix1 b)) (Ideal.ofBits .f32 0x43B40000#32) := by
  funext i
  unfold val_main_v12 shapeCast
  show val_main_v11 (F := Ideal) x0 x1 _ = _
  rw [val_main_v11_apply, val_main_v10_apply, Ideal.hostDivf_def, Ideal.hostNegf_def, Ideal.negf_def,
    v9_eq x0 x1 hlab, val_main_cst_1_apply, Ideal.ofBits_def]
  rfl

end Cert.ReferenceIdeal.RefValue

end
-- ==== Proof.lean ====
/-
  The certificate: a row-normalised log-softmax loss, tiled, against its array-level form.

  Both programs take predictions x : f32[131072, 360] and labels l : i32[131072]. Per row they compute
    s = x / Σ|x| - max (x / Σ|x|),   lse = log Σ exp s,   the row's value  s[l] - lse,
  and return  -(Σ_rows value) / 360  as an f32[1].

  The kernel walks the rows in 32 tiles of 4096 on a 2 × 16 grid, keeps one accumulator per run of 16 tiles
  (reset at the run's first tile, written to an 8 × 128 output block at its last), picks s[l] by a one-hot
  mask over the 360 columns summed along the row, and the host lines after it add the two runs' values,
  negate and divide by 360. The reference normalises, takes a log-softmax, gathers the label's entry
  (negative labels wrapped, labels out of range filled) and sums over all rows.

  On the extended reals the two are one function of the arguments whenever every label is a column number,
  0 ≤ l < 360 (the statement's precondition): there the masked sum is the entry at the label, the gather reads
  that entry, and a sum over 131072 rows is the sum over 32 tiles of sums over 4096 rows, however it is
  grouped (addition on the extended reals is commutative and associative, so finiteness of the predictions
  is never used). Proof/RowLoss.lean states that function; Proof/KernelResult.lean reads the kernel's run
  (its frame run, the accumulator by induction on the grid point, the output array from its two blocks, the
  host lines after the region); Proof/RefStages.lean reads the reference's run stretch by stretch,
  Proof/RefValue.lean its last stage as the same function, Proof/PreRange.lean the labels' range out of the
  precondition. The idealization rewrote nothing, so `preserves` is trivial; the three frames are the
  generated frame runs and the reference's run with its result dropped.
-/
import proofs.«417655_j70643622085336_2_alg».proof.Defs
import proofs.«417655_j70643622085336_2_alg».proof.Proof.Gen.Kernel
import proofs.«417655_j70643622085336_2_alg».proof.Proof.Gen.Kernel.Skeleton
import proofs.«417655_j70643622085336_2_alg».proof.Proof.Gen.Kernel.Launch
import proofs.«417655_j70643622085336_2_alg».proof.Proof.Gen.Kernel.Points
import proofs.«417655_j70643622085336_2_alg».proof.Proof.Gen.Kernel.Frame
import proofs.«417655_j70643622085336_2_alg».proof.Proof.Gen.KernelIdeal
import proofs.«417655_j70643622085336_2_alg».proof.Proof.Gen.KernelIdeal.Skeleton
import proofs.«417655_j70643622085336_2_alg».proof.Proof.Gen.KernelIdeal.Launch
import proofs.«417655_j70643622085336_2_alg».proof.Proof.Gen.KernelIdeal.Points
import proofs.«417655_j70643622085336_2_alg».proof.Proof.Gen.KernelIdeal.Frame
import proofs.«417655_j70643622085336_2_alg».proof.Proof.Gen.ReferenceIdeal
import proofs.«417655_j70643622085336_2_alg».proof.Proof.Gen.Pre_finite_inputs
import proofs.«417655_j70643622085336_2_alg».proof.Proof.KernelResult
import proofs.«417655_j70643622085336_2_alg».proof.Proof.RefStages
import proofs.«417655_j70643622085336_2_alg».proof.Proof.RefValue
import proofs.«417655_j70643622085336_2_alg».proof.Proof.PreRange
import Idealize.ShloMosaic.Adequacy
import Idealize.ShloMosaic.Init

noncomputable section

namespace Cert.Proof

open Idealize.ShloMosaic Idealize.SL.Sem Idealize.ShloMosaic.ValueIdx

/-- The word-level kernel runs and leaves its arguments alone: its generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefStages.run (F := Ideal) m ρ)

/-- The idealization rewrote no operation. -/
theorem preserves : Cert.preserves_Kernel_KernelIdeal := trivial

/-- From arguments that agree and labels that are column numbers, both runs end with the result at the loss
    of the specification: the kernel's by the accumulation over the grid, the reference's by its last stage. -/
theorem algebraic : Cert.algebraic_KernelIdeal_ReferenceIdeal := by
  intro m ρ m' ρ' hpre hagree
  refine ⟨fun c _ => Cert.RowLoss.total
      (fun b j => m ((c.tc : Thread Cert.KernelIdeal.nD Cert.KernelIdeal.τ).loc Cert.KernelIdeal.main_arg0) (ix2 b j))
      (fun b => m ((c.tc : Thread Cert.KernelIdeal.nD Cert.KernelIdeal.τ).loc Cert.KernelIdeal.main_arg1) (ix1 b))
      (Ideal.ofBits .f32 0x43B40000#32),
    Cert.KernelIdeal.KValue.run m ρ, ?_⟩
  refine (θ_run Cert.ReferenceIdeal.defs _ _).mono (fun _ h c => ⟨(h c).1.trans ?_, (h c).2⟩)
    (Cert.ReferenceIdeal.RefStages.run (F := Ideal) m' ρ')
  rw [(hagree c).1, (hagree c).2]
  exact Cert.ReferenceIdeal.RefValue.result_eq _ _
    (fun b => Cert.ReferenceIdeal.RefValue.labels_in_range _ _ (hpre c) b)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
